-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  reducesTo_S4096x4096_S4096_d1 : S4096x4096.ReducesTo [1] S4096
  dot_S4096x32_S32x4096_S4096x4096_1_0_0_1_n_n_wf : DotDims.WF S4096x32 S32x4096 S4096x4096 [1] [0] [0] [1] [] []

variable [Facts]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def fn_part1 {F : FTy → Type} [FloatOps F] (main_arg1 : FVec F S4096x4096 .f32) (main_arg2 : FVec F S32x4096 .f32) (main_arg3 : FVec F S4096x32 .f32) (main_arg4 : FVec F S4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := (fun l r => Host.dotGeneral dot_S4096x32_S32x4096_S4096x4096_1_0_0_1_n_n none l r) main_arg3 main_arg2
  let main_v25 : FVec F S4096x4096 .f32 := addf main_arg1 main_v24
  let main_v26 : FVec F S4096x4096 .f32 := (fun l r => Host.dotGeneral dot_S4096x32_S32x4096_S4096x4096_1_0_0_1_n_n none l r) main_arg3 main_arg2
  let main_v27 : FVec F S4096x4096 .f32 := addf main_arg1 main_v26
  let main_v28 : FVec F S4096x4096 .f32 := mulf main_v25 main_v27
  let main_cst_8 : FVec F S_ .f32 := constant S_ .f32 0x00000000#32
  let main_v29 : FVec F S4096 .f32 := (fun x v => Host.reduceAdd x v reducesTo_S4096x4096_S4096_d1 h_S_) main_v28 main_cst_8
  let main_v30 : FVec F S4096 .f32 := Host.sqrt main_v29
  let main_cst_9 : FVec F S_ .f32 := constant S_ .f32 0x00000000#32
  let main_v31 : FVec F S4096 .f32 := broadcastInDim S4096 ![] bcast_S_S4096 main_cst_9
  let main_v32 : IVec S4096 1 := cmpf .ogt main_v30 main_v31
  let main_c_10 : IVec S_ 1 := constantI S_ 1 1#1
  let main_v33 : IVec S_ 1 := (fun x v => Host.reduce IntOp.andi x v reducesTo_S4096_S_d0 h_S_) main_v32 main_c_10
  let main_v34 : IVec S_ 1 := andi main_v23 main_v33
  main_v34

def fn {F : FTy → Type} [FloatOps F] (main_arg0 : FVec F S2x2048x4096 .f32) (main_arg1 : FVec F S4096x4096 .f32) (main_arg2 : FVec F S32x4096 .f32) (main_arg3 : FVec F S4096x32 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg1 main_arg2 main_arg3 main_arg4 main_v13 main_v16
-- ==== Kernel.lean ====
abbrev S2x2048x4096 : Shape := ⟨3, ![2, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S4096x1 : Shape := ⟨2, ![4096, 1]⟩
abbrev S256x4096 : Shape := ⟨2, ![256, 4096]⟩
abbrev S256x32 : Shape := ⟨2, ![256, 32]⟩
abbrev S256x1 : Shape := ⟨2, ![256, 1]⟩
abbrev S256 : Shape := ⟨1, ![256]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S32x4096, .f32⟩
  | .hbm, ⟨3, _⟩ => ⟨S4096x32, .f32⟩
  | .hbm, ⟨4, _⟩ => ⟨S4096, .f32⟩
  | .hbm, ⟨5, _⟩ => ⟨S4096x4096, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S256x32, .f32⟩
  | .local _ .vmem, ⟨3, _⟩ => ⟨S256x32, .f32⟩
  | .local _ .vmem, ⟨4, _⟩ => ⟨S32x4096, .f32⟩
  | .local _ .vmem, ⟨5, _⟩ => ⟨S256x4096, .f32⟩
  | .local _ .vmem, ⟨6, _⟩ => ⟨S256x4096, .f32⟩
  | .local _ .vmem, ⟨7, _⟩ => ⟨S256x1, .f32⟩
  | .local _ .vmem, ⟨8, _⟩ => ⟨S256x1, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S4096_S4096x1 : S4096.ShapeCasts S4096x1
  shapeCasts_S4096x1_S1x4096 : S4096x1.ShapeCasts S1x4096
  shapeCasts_S2x2048x4096_S4096x4096 : S2x2048x4096.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  dot_S256x32_S32x4096_S256x4096_1_0_0_1_n_n_wf : DotDims.WF S256x32 S32x4096 S256x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x4096.size a
  hwx0_2 : ∀ i : grid0.Coords, EltTy.bits .f32 = 32 ∨ (Rect.block (s := S32x4096) S32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S2x2048x32 : Shape := ⟨3, ![2, 2048, 32]⟩
abbrev S_ : Shape := ⟨0, ![]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S32x4096, .f32⟩
  | .hbm, ⟨3, _⟩ => ⟨S4096x32, .f32⟩
  | .hbm, ⟨4, _⟩ => ⟨S4096, .f32⟩
  | .hbm, ⟨5, _⟩ => ⟨S2x2048x4096, .f32⟩
  | .hbm, ⟨6, _⟩ => ⟨S2x2048x32, .f32⟩
  | .hbm, ⟨7, _⟩ => ⟨S2x2048x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S2x2048x4096, .f32⟩
  | .hbm, ⟨15, _⟩ => ⟨S1x1x4096, .f32⟩
  | .hbm, ⟨16, _⟩ => ⟨S2x2048x4096, .f32⟩
  | .hbm, ⟨17, _⟩ => ⟨S2x2048x4096, .f32⟩
  | .hbm, ⟨18, _⟩ => ⟨S1x1x4096, .f32⟩
  | .hbm, ⟨19, _⟩ => ⟨S2x2048x4096, .f32⟩
  | .hbm, ⟨20, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []
  dot_S2x2048x4096_S32x4096_S2x2048x32_2_1_01_0_n_n_wf : DotDims.WF S2x2048x4096 S32x4096 S2x2048x32 [2] [1] [0, 1] [0] [] []
  dot_S2x2048x32_S4096x32_S2x2048x4096_2_1_01_0_n_n_wf : DotDims.WF S2x2048x32 S4096x32 S2x2048x4096 [2] [1] [0, 1] [0] [] []
  dot_S4096x32_S32x4096_S4096x4096_1_0_0_1_n_n_wf : DotDims.WF S4096x32 S32x4096 S4096x4096 [1] [0] [0] [1] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf
def dot_S2x2048x4096_S32x4096_S2x2048x32_2_1_01_0_n_n : DotDims S2x2048x4096 S32x4096 S2x2048x32 where
  lhsContracting := [2]
  rhsContracting := [1]
  lhsNonContracting := [0, 1]
  rhsNonContracting := [0]
  lhsBatch := []
  rhsBatch := []
  wf := dot_S2x2048x4096_S32x4096_S2x2048x32_2_1_01_0_n_n_wf
def dot_S2x2048x32_S4096x32_S2x2048x4096_2_1_01_0_n_n : DotDims S2x2048x32 S4096x32 S2x2048x4096 where
  lhsContracting := [2]
  rhsContracting := [1]
  lhsNonContracting := [0, 1]
  rhsNonContracting := [0]
  lhsBatch := []
  rhsBatch := []
  wf := dot_S2x2048x32_S4096x32_S2x2048x4096_2_1_01_0_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf

class Facts : Prop extends Facts₀ where

variable [Facts]
-- ==== Proof.K.Reg0.lean ====
/-
  The first pallas_call (grid of 16 row tiles of 256 rows): its proof data and its body obligation,
  at any float instance. At tile t the body reads a 256×4096 tile of W, the matching 256×32 tile of
  lora_B and all of lora_A, and leaves in the two output tiles  eff = W + B·A  and the column of row
  norms  sqrt(Σ_i eff[r,i]²).  Nothing is kept between tiles.
-/
import proofs.«154487_j26989574488653_1_alg».proof.Proof.Gen.Kernel.Launch
import proofs.«154487_j26989574488653_1_alg».proof.Proof.Gen.Kernel.Skeleton
import proofs.«154487_j26989574488653_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents the region is entered from, per core: a parameter. -/
variable (V : (c : Dev nD) → (b : Ref sig .tc) → Buf (Elt F) ((c : Thread nD τ).loc b))

/-- Window w's tile at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the first call on core c: the three inputs stay at their tiles, the two outputs
    hold the effective-weight tile and its row norms. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
    | ⟨4, _⟩ => k0_pay2 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]
theorem after0_4 (c : Dev nD) (t : Fin cfg0.N) :
    (dat0 V c).after 4 t = k0_pay2 (iblk0 V c 0 t) (iblk0 V c 1 t) (iblk0 V c 2 t) := by dsimp only [dat0]

/-- The offset of a whole-buffer access: zero on both axes. -/
private theorem zeros2 : (![0, 0] : Fin 2 → ℕ) = fun _ => 0 :=
  funext fun a => match a with
    | ⟨0, _⟩ => rfl
    | ⟨1, _⟩ => rfl

/-- Each input's current staging buffer holds its tile at every point, fetched there or not: where it is not
    fetched its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

section Whole
variable {Val : EltTy → Type} {sg : RefSig} {κ : Kind} {sp : Space} {S : Shape} {e : EltTy}

/-- A load through the whole-shape rectangle at zero offsets reads what the view reads. -/
private theorem readAt_whole_rect (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through it, over any contents, leaves exactly its payload. -/
private theorem read_writes_whole_rect [∀ e, Nonempty (Val e)] (v : View sg κ sp S e) (f : v.ty.Contents Val)
    {off : Fin S.rank → ℕ} (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _
    (fun y => ⟨_, List.mem_singleton_self _, View.mem_set_unit_zero h inb y⟩), View.canon_unit_zero h inb w]

end Whole

set_option maxHeartbeats 1000000 in
/-- The kernel on whole staging memrefs, the three inputs' at contents x0, x1, x2 and the two outputs' at anything:
    it leaves the inputs as they were, the first output at  x0 + x1·x2  (both factors rounded to bf16 first) and the
    second at the square roots of that tile's row sums of squares. -/
theorem sound_kernel0 (c : Dev nD) (E : Set ℕ) (i : grid0.Coords)
    (arg1 : Memref sig .tc .vmem S256x4096 .f32) (harg1 : arg1.IsWhole)
    (arg2 : Memref sig .tc .vmem S256x32 .f32) (harg2 : arg2.IsWhole)
    (arg3 : Memref sig .tc .vmem S32x4096 .f32) (harg3 : arg3.IsWhole)
    (arg4 : Memref sig .tc .vmem S256x4096 .f32) (harg4 : arg4.IsWhole)
    (arg5 : Memref sig .tc .vmem S256x1 .f32) (harg5 : arg5.IsWhole)
    (x0 : Vec F S256x4096 .f32) (x1 : Vec F S256x32 .f32) (x2 : Vec F S32x4096 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k0_pay1 x0 x1 x2)
            ∗ owns (c : Thread nD τ) arg5 fullShare (k0_pay2 x0 x1 x2)) -∗ K ⟨⟩))
      ⊢ wp frame (wpE (defs₀ (F := F)) Variants.none c none) E
          (cc0__effw_kernel i arg1 harg1 arg2 harg2 arg3 harg3 arg4 harg4 arg5 harg5) K := by
  simp only [cc0__effw_kernel_eq_skeleton]; unfold cc0__effw_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole_rect _ _ zeros2, readAt_whole_rect _ _ zeros2, readAt_whole_rect _ _ zeros2,
      readAt_whole_rect _ _ zeros2]
  iexists _; isplitr
  swap; · iexact H4
  ipureintro
  rw [read_writes_whole_rect _ _ zeros2, readAt_whole_rect _ _ zeros2, readAt_whole_rect _ _ zeros2,
    readAt_whole_rect _ _ zeros2]

/-- What the body is called with at tile t: the invariant, what the core owes, and the five current staging
    buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any tile: the inputs' buffers hold their tiles, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first call, at every tile. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
/-
  The second kernel's body, run once per control case of its two conditionals on the contraction
  coordinate k, over any whole staging memrefs: at k = 0 the accumulator is cleared and then gains this
  step's product; at k = 1, 2 it gains the product; at k = 3 it gains the product and the output tile
  becomes the accumulator times the broadcast scale row. Where the output tile is not stored it is
  handed back exactly as found.
-/
import proofs.«154487_j26989574488653_1_alg».proof.Proof.Gen.Kernel.Launch
import proofs.«154487_j26989574488653_1_alg».proof.Proof.Gen.Kernel.Skeleton
import proofs.«154487_j26989574488653_1_alg».proof.Proof.Gen.Kernel.Points
import Idealize.ShloMosaic.Lib.Pipeline.FrameBody
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The two conditions, decided from the contraction coordinate

The contraction coordinate k ranges over four values, so each condition's truth is settled by looking at the four. -/

/-- The contraction coordinate is below four. -/
theorem body1_k_lt (i : grid1.Coords) : (i 2).val < 4 := (i 2).isLt

/-- Over the four values of k, the first condition (k compared with 0, widened, compared with 0 again) holds exactly at k = 0. -/
theorem body1_first_cond_fin : ∀ k : Fin 4,
    (Scalar.cmpi .ne (Scalar.extui (Scalar.cmpi .eq (BitVec.ofNat 32 k.val) 0#32)) 0#32 = 1#1) ↔ k.val = 0 := by decide

/-- Over the four values of k, the second condition (k compared with 3, widened, compared with 0) holds exactly at k = 3. -/
theorem body1_last_cond_fin : ∀ k : Fin 4,
    (Scalar.cmpi .ne (Scalar.extui (Scalar.cmpi .eq (BitVec.ofNat 32 k.val) 3#32)) 0#32 = 1#1) ↔ k.val = 3 := by decide

/-- The first conditional is taken exactly at k = 0. -/
theorem body1_first_cond_iff (i : grid1.Coords) :
    (Scalar.cmpi .ne (Scalar.extui (Scalar.cmpi .eq (BitVec.ofNat 32 (i 2).val) 0#32)) 0#32 = 1#1) ↔ (i 2).val = 0 :=
  body1_first_cond_fin ⟨(i 2).val, body1_k_lt i⟩

/-- The second conditional is taken exactly at k = 3. -/
theorem body1_last_cond_iff (i : grid1.Coords) : (k1_cond2 i = 1#1) ↔ (i 2).val = 3 :=
  body1_last_cond_fin ⟨(i 2).val, body1_k_lt i⟩

/-! ## Whole-buffer loads and stores

Every access of the body goes through the rectangle that starts at the origin and has the buffer's own extents: a
load through it reads the contents, a store through it replaces them, and a load after such a store reads the stored
value back. -/

/-- The offsets of every access: zero on both axes. -/
theorem body1_zeros : (![0, 0] : Fin 2 → Nat) = fun _ => 0 := by
  funext a; match a with
  | ⟨0, _⟩ => rfl
  | ⟨1, _⟩ => rfl

/-- After a store through the whole-shape rectangle at the origin, made last, the buffer reads as the stored value,
    whatever was stored before and whatever the buffer held: that one store covers every index. -/
theorem body1_read_writes_cons_unit_zero {Val : EltTy → Type} [∀ e, Nonempty (Val e)] {sig : RefSig} {κ : Kind} {sp : Space}
    {S : Shape} {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨(⟨Rect.unit off S.size inb, w⟩ : View.Piece Val S e), List.mem_cons_self,
    View.mem_set_unit_zero h inb y⟩)).trans (View.canon_cons_unit_zero h inb w L)

/-- A load of a whole 1024×1024 tile reads the tile's contents. -/
theorem body1_load_tile (v : View sig .tc .vmem S1024x1024 .f32) (f : v.ty.Contents (Elt F)) :
    v.readAt (Elt F) (Rect.unit (s := S1024x1024) ![0, 0] S1024x1024.size inb_S1024x1024_S1024x1024_0_0).toLoadRect f = v.read (Elt F) f := by
  rw [View.readAt_eq_ld]; exact View.ld_unit_zero (S := S1024x1024) body1_zeros inb_S1024x1024_S1024x1024_0_0 _

/-- A load of the whole 1×1024 scale row reads the row's contents. -/
theorem body1_load_row (v : View sig .tc .vmem S1x1024 .f32) (f : v.ty.Contents (Elt F)) :
    v.readAt (Elt F) (Rect.unit (s := S1x1024) ![0, 0] S1x1024.size inb_S1x1024_S1x1024_0_0).toLoadRect f = v.read (Elt F) f := by
  rw [View.readAt_eq_ld]; exact View.ld_unit_zero (S := S1x1024) body1_zeros inb_S1x1024_S1x1024_0_0 _

/-- A 1024×1024 tile whose last store was of the whole tile reads as that store's value. -/
theorem body1_store_tile (v : View sig .tc .vmem S1024x1024 .f32) (f : v.ty.Contents (Elt F)) (w : Vec F S1024x1024 .f32)
    (L : List (View.Piece (Elt F) S1024x1024 .f32)) :
    v.read (Elt F) (v.writes (Elt F) f (⟨Rect.unit ![0, 0] S1024x1024.size inb_S1024x1024_S1024x1024_0_0, w⟩ :: L)) = w :=
  body1_read_writes_cons_unit_zero (S := S1024x1024) v f body1_zeros inb_S1024x1024_S1024x1024_0_0 w L

/-- A whole-tile load made after one whole-tile store reads the stored value back. -/
theorem body1_store_load_tile (v : View sig .tc .vmem S1024x1024 .f32) (w : Vec F S1024x1024 .f32) :
    v.readCov [(⟨Rect.unit ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w :=
  View.readCov_unit_zero (S := S1024x1024) v body1_zeros inb_S1024x1024_S1024x1024_0_0 w

/-! ## The body, case by case -/

/-- k = 0: the scratch at anything in, at this step's product over a cleared accumulator out; the output tile untouched. -/
theorem run1_first (c : Dev nD) (E : Set ℕ) (i : grid1.Coords) (hk : (i 2).val = 0)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .f32) (x2 : Vec F S1x1024 .f32) (y : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare y ∗ owns (c : Thread nD τ) arg7 fullShare (k1_pay2 x0 x1 k1_pay1)) -∗ K ⟨⟩))
      ⊢ wp frame (wpE (defs₀ (F := F)) Variants.none c none) E (cc1__main_kernel i arg3 harg3 arg4 harg4 arg5 harg5 arg6 harg6 arg7 harg7) K := by
  -- the first conditional is taken, the second is not
  have hc1 : (Scalar.cmpi .ne (Scalar.extui (Scalar.cmpi .eq (BitVec.ofNat 32 (i 2).val) 0#32)) 0#32 = 1#1) :=
    (body1_first_cond_iff i).mpr hk
  have hc2 : ¬ (k1_cond2 i = 1#1) := fun h => by have := (body1_last_cond_iff i).mp h; omega
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the scratch ends at its last store: the product of the two loaded tiles added to what was loaded from the scratch,
  -- and that load came after the clearing store, so it read the zeros back
  rw [body1_store_tile, body1_load_tile, body1_load_tile]
  sl_unfold_run_names
  rw [body1_store_load_tile]

/-- k = 1, 2: the scratch at `acc` in, at `acc` plus this step's product out; the output tile untouched. -/
theorem run1_mid (c : Dev nD) (E : Set ℕ) (i : grid1.Coords) (hk0 : (i 2).val ≠ 0) (hk3 : (i 2).val ≠ 3)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .f32) (x2 : Vec F S1x1024 .f32) (y acc : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y ∗ owns (c : Thread nD τ) arg7 fullShare acc
        ∗ (iprop(owns (c : Thread nD τ) arg3 fullShare x0 ∗ owns (c : Thread nD τ) arg4 fullShare x1 ∗ owns (c : Thread nD τ) arg5 fullShare x2
            ∗ owns (c : Thread nD τ) arg6 fullShare y ∗ owns (c : Thread nD τ) arg7 fullShare (k1_pay2 x0 x1 acc)) -∗ K ⟨⟩))
      ⊢ wp frame (wpE (defs₀ (F := F)) Variants.none c none) E (cc1__main_kernel i arg3 harg3 arg4 harg4 arg5 harg5 arg6 harg6 arg7 harg7) K := by
  -- neither conditional is taken
  have hc1 : ¬ (Scalar.cmpi .ne (Scalar.extui (Scalar.cmpi .eq (BitVec.ofNat 32 (i 2).val) 0#32)) 0#32 = 1#1) :=
    fun h => hk0 ((body1_first_cond_iff i).mp h)
  have hc2 : ¬ (k1_cond2 i = 1#1) := fun h => hk3 ((body1_last_cond_iff i).mp h)
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the scratch ends at its one store, over the three tiles as loaded
  rw [body1_store_tile, body1_load_tile, body1_load_tile, body1_load_tile]

/-- k = 3: the scratch at `acc` in, at `acc` plus this step's product out; the output tile at anything in, at the
    new accumulator times the broadcast scale row out. -/
theorem run1_last (c : Dev nD) (E : Set ℕ) (i : grid1.Coords) (hk : (i 2).val = 3)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .f32) (x2 : Vec F S1x1024 .f32) (acc : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare acc
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 acc) x2) ∗ owns (c : Thread nD τ) arg7 fullShare (k1_pay2 x0 x1 acc)) -∗ K ⟨⟩))
      ⊢ wp frame (wpE (defs₀ (F := F)) Variants.none c none) E (cc1__main_kernel i arg3 harg3 arg4 harg4 arg5 harg5 arg6 harg6 arg7 harg7) K := by
  -- the first conditional is not taken, the second is
  have hc1 : ¬ (Scalar.cmpi .ne (Scalar.extui (Scalar.cmpi .eq (BitVec.ofNat 32 (i 2).val) 0#32)) 0#32 = 1#1) :=
    fun h => by have := (body1_first_cond_iff i).mp h; omega
  have hc2 : (k1_cond2 i = 1#1) := (body1_last_cond_iff i).mpr hk
  simp only [cc1__main_kernel_eq_skeleton]; unfold cc1__main_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    -- the output tile ends at its one store: the accumulator as loaded after its update, times the scale row as loaded
    rw [body1_store_tile, body1_load_row]
    sl_unfold_run_names
    rw [body1_store_load_tile, body1_load_tile, body1_load_tile, body1_load_tile]
  iexists _; isplitr
  swap; · iexact H4
  ipureintro
  -- the scratch ends at its one store, over the three tiles as loaded
  sl_unfold_run_names
  rw [body1_store_tile, body1_load_tile, body1_load_tile, body1_load_tile]

end Cert.Kernel.Hand

end
-- ==== Proof.K.Reg1.lean ====
/-
  The second pallas_call (grid 4×4×4 over row tile i, column tile j, contraction tile k; k fastest):
  its proof data and its body obligation, at any float instance. A 1024×1024 accumulator lives in a
  scratch buffer across the four k-steps of an (i, j) pair: cleared at k = 0, at every k it gains the
  product of the x tile (i, k) with the transposed eff tile (j, k), and at k = 3 the output tile (i, j)
  is the accumulator times the scale row of column tile j. The output tile is untouched at k < 3.
-/
import proofs.«154487_j26989574488653_1_alg».proof.Proof.Gen.Kernel.Launch
import proofs.«154487_j26989574488653_1_alg».proof.Proof.Gen.Kernel.Skeleton
import proofs.«154487_j26989574488653_1_alg».proof.Proof.Gen.Kernel.Points
import proofs.«154487_j26989574488653_1_alg».proof.Proof.K.Reg1Runs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents the region is entered from, per core: a parameter. -/
variable (V : (c : Dev nD) → (b : Ref sig .tc) → Buf (Elt F) ((c : Thread nD τ).loc b))

/-- Window w's tile at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid point n: the partial product over the k-steps of the current (i, j) pair
    up to and including this one. -/
def accAt1 (c : Dev nD) : (n : ℕ) → n < cfg1.N → Vec F S1024x1024 .f32
  | 0, h => k1_pay2 (iblk1 V c 0 ⟨0, h⟩) (iblk1 V c 1 ⟨0, h⟩) k1_pay1
  | n + 1, h =>
    if (n + 1) % 4 = 0 then k1_pay2 (iblk1 V c 0 ⟨n + 1, h⟩) (iblk1 V c 1 ⟨n + 1, h⟩) k1_pay1
    else k1_pay2 (iblk1 V c 0 ⟨n + 1, h⟩) (iblk1 V c 1 ⟨n + 1, h⟩) (accAt1 c n (Nat.lt_of_succ_lt h))

theorem accAt1_reset (c : Dev nD) (t : Fin cfg1.N) (hk : t.val % 4 = 0) :
    accAt1 V c t.val t.isLt = k1_pay2 (iblk1 V c 0 t) (iblk1 V c 1 t) k1_pay1 := by
  obtain ⟨n, hn⟩ := t
  cases n with
  | zero => rfl
  | succ n => exact if_pos hk

theorem accAt1_step (c : Dev nD) (t : Fin cfg1.N) (hk : ¬ t.val % 4 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) hk
  | succ n => exact if_neg hk

/-- The invariant between grid points: before the first point the scratch holds anything; after point n
    it holds the accumulator of point n. The core's other scoped buffers (at anything) and the generator
    register ride along. -/
def PhiS1 (c : Dev nD) : (n : ℕ) → n ≤ cfg1.N → sProp 𝕄
  | 0, _ => Pipeline.ΦA spec1 c
  | n + 1, hn => iprop(owns (c : Thread nD τ) (Memref.whole cc1_scratch0) fullShare (accAt1 V c n hn)
      ∗ Pipeline.scopedRestBut (Ix := Unit) (Name := ℕ) (U := UR sig nD τ) (Lvl := ℕ) (Val := Elt F) spec1 c [cc1_scratch0]
      ∗ (∃ r, prngReg c r))

/-- The proof data of the second call on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

/-! ## The schedule of the grid, decided over its 64 points -/

/-- The contraction coordinate is the point's position modulo 4. -/
theorem coordK1 : ∀ t : Fin cfg1.N, (grid1.coords t 2).val = t.val % 4 :=
  (by decide +kernel : ∀ t : Fin grid1.N, (grid1.coords t 2).val = t.val % 4)

/-- The output window is idle away from the last contraction step, -/
theorem idleAt1_3 : ∀ t : Fin cfg1.N, ¬ t.val % 4 = 3 → cfg1.idle 3 (grid1.coords t) = true :=
  (by decide +kernel : ∀ t : Fin grid1.N, ¬ t.val % 4 = 3 → idle1 3 (grid1.coords t) = true)
/-- and live at it. -/
theorem liveAt1_3 : ∀ t : Fin cfg1.N, t.val % 4 = 3 → cfg1.idle 3 (grid1.coords t) = false :=
  (by decide +kernel : ∀ t : Fin grid1.N, t.val % 4 = 3 → idle1 3 (grid1.coords t) = false)
/-- It is not written back away from the last contraction step. -/
theorem noFlush1_3 (t : Fin cfg1.N) (h : ¬ t.val % 4 = 3) : (cfg1.win 3).flush t = false := by
  cases hf : (cfg1.win 3).flush t with
  | false => rfl
  | true => exact absurd ((flush1_3 t).mp hf) h

/-! ## The inputs' staging buffers hold their tiles at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The invariant, spelt -/

local notation "Rest1" c => Pipeline.scopedRestBut (Ix := Unit) (Name := ℕ) (U := UR sig nD τ) (Lvl := ℕ) (Val := Elt F) spec1 c [cc1_scratch0]

/-- Before the first point: the scratch at anything, the other scoped buffers, the generator register. -/
theorem PhiA1_eq (c : Dev nD) :
    (Pipeline.ΦA spec1 c : sProp 𝕄)
      = iprop(((∃ d, owns (c : Thread nD τ) (Memref.whole cc1_scratch0) fullShare d) ∗ Rest1 c) ∗ (∃ r, prngReg c r)) := by
  unfold Pipeline.ΦA
  rw [Pipeline.scopedRest_split_of_list spec1 c [cc1_scratch0] (by decide) (by decide)]
  simp only [bigSepL_singleton, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) (Memref.whole cc1_scratch0) fullShare (accAt1 V c n hn) ∗ (Rest1 c) ∗ (∃ r, prngReg c r)) := rfl

theorem PhiS1_pos (c : Dev nD) (n : ℕ) (h : n ≤ cfg1.N) (hz : n ≠ 0) :
    PhiS1 V c n h = iprop(owns (c : Thread nD τ) (Memref.whole cc1_scratch0) fullShare (accAt1 V c (n - 1) (by omega)) ∗ (Rest1 c) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The body at a point -/

/-- Each window's current staging memref at a point, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]
theorem leaves1_2 (c : Dev nD) (t : Fin cfg1.N) :
    (dat1 V c).leavesExact 2 t = owns (c : Thread nD τ) (ms1_2 t) fullShare (iblk1 V c 2 t) := by
  rw [← after1_2]
theorem leaves1_3_live (c : Dev nD) (t : Fin cfg1.N) (h : t.val % 4 = 3) :
    (dat1 V c).leavesExact 3 t = owns (c : Thread nD τ) (ms1_3 t) fullShare (k1_pay3 (accAt1 V c t.val t.isLt) (iblk1 V c 2 t)) := by
  rw [← after1_3]; unfold Dat.leavesExact; rw [liveAt1_3 t h]

/-- The body at any point, by the contraction step it is at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  have hk : (grid1.coords t 2).val = t.val % 4 := coordK1 t
  by_cases h0 : t.val % 4 = 0
  · have h3 : ¬ t.val % 4 = 3 := by omega
    rw [Dat.leavesExact_idle (dat1 V c) 3 t (idleAt1_3 t h3) (noFlush1_3 t h3)]
    rw [accAt1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (run1_first c Set.univ (grid1.coords t) (hk.trans h0) _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (run1_first c Set.univ (grid1.coords t) (hk.trans h0) _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt1_step V c t h0]
    rw [PhiS1_castSucc V c t, PhiS1_pos V c _ _ hz]
    by_cases h3 : t.val % 4 = 3
    · rw [leaves1_3_live V c t h3, accAt1_step V c t h0]
      iintro ⟨⟨HS, HR, Hg⟩, Ho, ⟨%d0, H0⟩, ⟨%d1, H1⟩, ⟨%d2, H2⟩, ⟨%d3, H3⟩⟩
      iapply (run1_last c Set.univ (grid1.coords t) (hk.trans h3) _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h3) (noFlush1_3 t h3)]
      iintro ⟨⟨HS, HR, Hg⟩, Ho, ⟨%d0, H0⟩, ⟨%d1, H1⟩, ⟨%d2, H2⟩, ⟨%d3, H3⟩⟩
      iapply (run1_mid c Set.univ (grid1.coords t) (fun e => h0 (hk.symm.trans e)) (fun e => h3 (hk.symm.trans e)) _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the second call, at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After the last point the invariant gives the scoped rest back, the accumulator's contents forgotten. -/
theorem hout1 (c : Dev nD) : (dat1 (F := F) V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, HR, Hg⟩
  isplitl [HS HR]
  · isplitl [HS]
    · iexists _; iexact HS
    iexact HR
  iexact Hg

end Cert.Kernel.Hand

end
-- ==== Proof.K.RunCond.lean ====
/-
  The run of the whole program with its result named. The program is: first kernel region, a stretch
  of host operations (the scale column  magnitude / norm  and two reshapes), second kernel region, one
  last reshape. Given, for each kernel region, a record of its obligations entered from the buffer
  contents before it and left at the contents after it, every weakly fair execution terminates, each
  argument array ends as launched, and the result buffer ends at the last valuation's value: the last
  reshape applied to what the second region left.
-/
import proofs.«154487_j26989574488653_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unification, which must unfold plain definitions in types
set_option backward.isDefEq.respectTransparency.types false in
/-- For any contents the regions leave (`outs`) and any proof data, given one segment record per kernel region
    pinned to the valuations before and after it, the program terminates from memory `m` with zero counters,
    the result buffer holds the last valuation's value and every argument holds what it was launched with. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v6) = V4 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨hpre0 c, hpost0 c, hpre1 c, hpost1 c, sep_mono .rfl (hE2 c)⟩)
    (hinit := ?_) (QY := fun c s => s.mem ((c.tc : Thread nD τ).loc main_v6) = V4 m outs c main_v6 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c)⟩
    · iexact HSI

end Cert.Kernel.Hand

end
-- ==== Proof.K.Segs.lean ====
/-
  The two kernel regions as segments of the program's run, and the run itself.
  Region 0 is entered from the launch memory; what it leaves in its two result arrays is what its
  write-backs fold to. The host stretch then forms the scale column magnitude / norm and reshapes x.
  Region 1 is entered from those contents; what it leaves in its result array is again the fold of its
  write-backs. From one record per region the program's frame and its run with the result named follow.
-/
import proofs.«154487_j26989574488653_1_alg».proof.Proof.K.Reg0
import proofs.«154487_j26989574488653_1_alg».proof.Proof.K.Reg1
import proofs.«154487_j26989574488653_1_alg».proof.Proof.K.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents region 0 is entered from: the launch memory. -/
abbrev Ve0 : (c : Dev nD) → (b : Ref sig .tc) → Buf (Elt F) ((c : Thread nD τ).loc b) := fun c b => Gen.V0 m c b

/-- What region 0 leaves: its arrays at the fold of its write-backs, every other buffer as entered. -/
def outs1 : Gen.Outs (F := F) := fun _ r c =>
  Pipeline.withArrays spec0 c (Gen.V0 m c) (fun w => (dat0 (Ve0 m) c).arrAt w cfg0.N) (Proc.devRef .tc r)

/-- The contents region 1 is entered from: after region 0 and the host stretch. -/
abbrev Ve1 : (c : Dev nD) → (b : Ref sig .tc) → Buf (Elt F) ((c : Thread nD τ).loc b) := fun c b => Gen.V2 m (outs1 m) c b

/-- What both regions leave, by position in the run. -/
def outs : Gen.Outs (F := F) := fun j r c =>
  if j = 3 then Pipeline.withArrays spec1 c (Gen.V2 m (outs1 m) c) (fun w => (dat1 (Ve1 m) c).arrAt w cfg1.N) (Proc.devRef .tc r)
  else outs1 m j r c

theorem outs_v0_0 (c : Dev nD) : outs m 1 main_v0_0 c = (dat0 (Ve0 m) c).arrAt 3 cfg0.N := by
  unfold outs
  rw [if_neg (by decide)]
  unfold outs1
  exact Pipeline.withArrays_arr spec0 launch0.win.arr_inj c _ _ 3
theorem outs_v0_1 (c : Dev nD) : outs m 1 main_v0_1 c = (dat0 (Ve0 m) c).arrAt 4 cfg0.N := by
  unfold outs
  rw [if_neg (by decide)]
  unfold outs1
  exact Pipeline.withArrays_arr spec0 launch0.win.arr_inj c _ _ 4
theorem outs_v5 (c : Dev nD) : outs m 3 main_v5 c = (dat1 (Ve1 m) c).arrAt 3 cfg1.N := by
  unfold outs
  rw [if_pos rfl]
  exact Pipeline.withArrays_arr spec1 launch1.win.arr_inj c _ _ 3
/-- The valuation region 1 is entered from does not depend on what region 1 leaves. -/
theorem V2_outs (c : Dev nD) : Gen.V2 m (outs m) c = Gen.V2 m (outs1 m) c := by
  have h0 : outs m 1 main_v0_0 c = outs1 m 1 main_v0_0 c := by unfold outs; rw [if_neg (by decide)]
  have h1 : outs m 1 main_v0_1 c = outs1 m 1 main_v0_1 c := by unfold outs; rw [if_neg (by decide)]
  show StableHlo.after hostOps1 (Gen.V1 m (outs m) c) = StableHlo.after hostOps1 (Gen.V1 m (outs1 m) c)
  unfold Gen.V1
  rw [h0, h1]

namespace Segs

/-! ## The valuations at the regions' boundaries, read at the core's references -/

/-- What region 0 leaves, read at the core's references. -/
abbrev Vx0 : (c : Dev nD) → (b : Ref sig .tc) → Buf (Elt F) ((c : Thread nD τ).loc b) := fun c b => Gen.V1 m (outs m) c b
/-- What region 1 leaves, read at the core's references. -/
abbrev Vx1 : (c : Dev nD) → (b : Ref sig .tc) → Buf (Elt F) ((c : Thread nD τ).loc b) := fun c b => Gen.V3 m (outs m) c b

/-- At region 0's exit each of its arrays holds the fold of its write-backs: the three inputs what they held at
    entry, the two outputs what the unknowns name. -/
theorem hF0 (c : Dev nD) (w : Fin cfg0.W) : (dat0 (Ve0 m) c).arrAt w cfg0.N = Vx0 m c (Pipeline.arrRef spec0 w) := by
  match w with
  | ⟨0, _⟩ => exact ((dat0 (Ve0 m) c).arrAt_in 0 rfl _).trans ((A_eq0 (Ve0 m) c 0).trans (Gen.V1_of m (outs m) c _ (by decide)).symm)
  | ⟨1, _⟩ => exact ((dat0 (Ve0 m) c).arrAt_in 1 rfl _).trans ((A_eq0 (Ve0 m) c 1).trans (Gen.V1_of m (outs m) c _ (by decide)).symm)
  | ⟨2, _⟩ => exact ((dat0 (Ve0 m) c).arrAt_in 2 rfl _).trans ((A_eq0 (Ve0 m) c 2).trans (Gen.V1_of m (outs m) c _ (by decide)).symm)
  | ⟨3, _⟩ =>
    refine (outs_v0_0 m c).symm.trans ?_
    show outs m 1 main_v0_0 c = Gen.V1 m (outs m) c main_v0_0
    unfold Gen.V1
    rw [Function.update_of_ne (StableHlo.devRef_ne_of_ne (by decide) : (Proc.devRef .tc main_v0_0 : DevRef τ sig) ≠ Proc.devRef .tc main_v0_1), Function.update_self]
  | ⟨4, _⟩ =>
    refine (outs_v0_1 m c).symm.trans ?_
    show outs m 1 main_v0_1 c = Gen.V1 m (outs m) c main_v0_1
    unfold Gen.V1
    rw [Function.update_self]

/-- Every buffer that is no array of region 0 is left as entered. -/
theorem hrest0 (c : Dev nD) : ∀ b, b ∉ Finset.univ.image (Pipeline.arrRef spec0) → Vx0 m c b = Ve0 m c b :=
  fun b hb => Gen.V1_of m (outs m) c b fun hmem => by
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem (List.not_mem_nil)

/-- At region 1's exit each of its arrays holds the fold of its write-backs. -/
theorem hF1 (c : Dev nD) (w : Fin cfg1.W) : (dat1 (Ve1 m) c).arrAt w cfg1.N = Vx1 m c (Pipeline.arrRef spec1 w) := by
  match w with
  | ⟨0, _⟩ => exact ((dat1 (Ve1 m) c).arrAt_in 0 rfl _).trans ((A_eq1 (Ve1 m) c 0).trans (((Gen.V3_of m (outs m) c _ (by decide)).trans (congrFun (V2_outs m c) _))).symm)
  | ⟨1, _⟩ => exact ((dat1 (Ve1 m) c).arrAt_in 1 rfl _).trans ((A_eq1 (Ve1 m) c 1).trans (((Gen.V3_of m (outs m) c _ (by decide)).trans (congrFun (V2_outs m c) _))).symm)
  | ⟨2, _⟩ => exact ((dat1 (Ve1 m) c).arrAt_in 2 rfl _).trans ((A_eq1 (Ve1 m) c 2).trans (((Gen.V3_of m (outs m) c _ (by decide)).trans (congrFun (V2_outs m c) _))).symm)
  | ⟨3, _⟩ =>
    refine (outs_v5 m c).symm.trans ?_
    show outs m 3 main_v5 c = Gen.V3 m (outs m) c main_v5
    unfold Gen.V3
    rw [Function.update_self]

/-- Every buffer that is no array of region 1 is left as entered. -/
theorem hrest1 (c : Dev nD) : ∀ b, b ∉ Finset.univ.image (Pipeline.arrRef spec1) → Vx1 m c b = Ve1 m c b :=
  fun b hb => (Gen.V3_of m (outs m) c b fun hmem => by
    rcases List.mem_cons.mp hmem with rfl | hmem
    · exact hb (Finset.mem_image.mpr ⟨3, Finset.mem_univ _, rfl⟩)
    · exact absurd hmem (List.not_mem_nil)).trans (congrFun (V2_outs m c) _)

/-! ## The proof data family and the thread state -/

/-- Each region's proof data, at the contents the region is entered from. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- No core owes another anything: no level is assigned. -/
abbrev L0 : GSem nD τ sig → Finset Unit := fun _ => ∅
abbrev lv0 : GSem nD τ sig → Unit → ℕ := fun _ _ => 0

/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)

/-- The rest state between items: the same at every boundary. -/
abbrev E : Fin 3 → Dev nD → sProp 𝕄 := fun _ c => R (F := F) c

/-- The launch makes the rest state on every core. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (BI.emp : sProp 𝕄)) c)) ∗ levAts L0 lv0)
      ⊢ (|={Set.univ}=> bigSep Finset.univ (E (F := F) 0) : sProp 𝕄) := by
  refine Pipeline.initEach L0 lv0 fun c => ?_
  iintro ⟨⟨-, HO, -, Hp, -⟩, -⟩
  imodintro
  isplitl [Hp]; · iexists _; iexact Hp
  iexists ∅; iexact HO

/-- The rest state ends owing nothing. -/
theorem hE2 (c : Dev nD) : E (F := F) 2 c ⊢ (iprop(∃ W, owes (c : Thread nD τ) (0 : CellTallies nD τ sig Unit) W) : sProp 𝕄) := by
  iintro ⟨-, HO⟩
  iexact HO

/-- The launch's ghost element is the pipelines' own. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-! ## The regions as segments -/

set_option backward.isDefEq.respectTransparency.types false in
/-- Region 0 over the thread state: entered from every unscoped buffer at the launch memory, left at the
    valuation after it. Its arrays are split out of the unscoped buffers at entry and put back at the exit
    contents; the generator register goes into the region's invariant and comes back; nothing is owed. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L0 lv0 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation after the host stretch,
    left at the valuation after it. Its invariant before the first point is made from the generator register and
    the scoped buffers, and after the last point gives them back. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L0 lv0 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V2_outs m c]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (Ve1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Segs

/-! ## The run -/

/-- The frame: every weakly fair execution terminates and the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () Variants.none Segs.L0 Segs.lv0 (fun _ _ => rfl) ρ (outs m) (Segs.pdats m) 0 (fun _ => iprop(emp))
    (initOf (Pipeline.cells cfgs cellOf_inj) (Pipeline.launchToks cfgs cellOf_inj)) Segs.hu0 Segs.E (Segs.hE0 ρ) Segs.hE2
    (Segs.reg0 m) (fun _ => .rfl) (fun _ => .rfl) (Segs.reg1 m) (fun _ => .rfl) (fun _ => .rfl)

/-- The run with the result named: the result buffer ends at the last valuation's value. -/
theorem run_value : θ_run defs (onTc (τ := τ) (main (F := F))) ⟨m, fun _ => 0, ρ⟩ (fun r => ∀ c : Dev nD,
      r.2.mem ((c.tc : Thread nD τ).loc main_v6) = Gen.V4 m (outs m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m emb₁ () Variants.none Segs.L0 Segs.lv0 (fun _ _ => rfl) ρ (outs m) (Segs.pdats m) 0 (fun _ => iprop(emp))
    (initOf (Pipeline.cells cfgs cellOf_inj) (Pipeline.launchToks cfgs cellOf_inj)) Segs.hu0 Segs.E (Segs.hE0 ρ) Segs.hE2
    (Segs.reg0 m) (fun _ => .rfl) (fun _ => .rfl) (Segs.reg1 m) (fun _ => .rfl) (fun _ => .rfl)

end Cert.Kernel.Hand

end
-- ==== Proof.KI.Reg0.lean ====
/-
  The first pallas_call (grid of 16 row tiles of 256 rows): its proof data and its body obligation,
  at any float instance. At tile t the body reads a 256×4096 tile of W, the matching 256×32 tile of
  lora_B and all of lora_A, and leaves in the two output tiles  eff = W + B·A  and the column of row
  norms  sqrt(Σ_i eff[r,i]²).  Nothing is kept between tiles.
-/
import proofs.«154487_j26989574488653_1_alg».proof.Proof.Gen.KernelIdeal.Launch
import proofs.«154487_j26989574488653_1_alg».proof.Proof.Gen.KernelIdeal.Skeleton
import proofs.«154487_j26989574488653_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents the region is entered from, per core: a parameter. -/
variable (V : (c : Dev nD) → (b : Ref sig .tc) → Buf (Elt F) ((c : Thread nD τ).loc b))

/-- Window w's tile at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the first call on core c: the three inputs stay at their tiles, the two outputs
    hold the effective-weight tile and its row norms. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
    | ⟨4, _⟩ => k0_pay2 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]
theorem after0_4 (c : Dev nD) (t : Fin cfg0.N) :
    (dat0 V c).after 4 t = k0_pay2 (iblk0 V c 0 t) (iblk0 V c 1 t) (iblk0 V c 2 t) := by dsimp only [dat0]

/-- The offset of a whole-buffer access: zero on both axes. -/
private theorem zeros2 : (![0, 0] : Fin 2 → ℕ) = fun _ => 0 :=
  funext fun a => match a with
    | ⟨0, _⟩ => rfl
    | ⟨1, _⟩ => rfl

/-- Each input's current staging buffer holds its tile at every point, fetched there or not: where it is not
    fetched its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

section Whole
variable {Val : EltTy → Type} {sg : RefSig} {κ : Kind} {sp : Space} {S : Shape} {e : EltTy}

/-- A load through the whole-shape rectangle at zero offsets reads what the view reads. -/
private theorem readAt_whole_rect (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through it, over any contents, leaves exactly its payload. -/
private theorem read_writes_whole_rect [∀ e, Nonempty (Val e)] (v : View sg κ sp S e) (f : v.ty.Contents Val)
    {off : Fin S.rank → ℕ} (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _
    (fun y => ⟨_, List.mem_singleton_self _, View.mem_set_unit_zero h inb y⟩), View.canon_unit_zero h inb w]

end Whole

set_option maxHeartbeats 1000000 in
/-- The kernel on whole staging memrefs, the three inputs' at contents x0, x1, x2 and the two outputs' at anything:
    it leaves the inputs as they were, the first output at  x0 + x1·x2  (both factors rounded to bf16 first) and the
    second at the square roots of that tile's row sums of squares. -/
theorem sound_kernel0 (c : Dev nD) (E : Set ℕ) (i : grid0.Coords)
    (arg1 : Memref sig .tc .vmem S256x4096 .f32) (harg1 : arg1.IsWhole)
    (arg2 : Memref sig .tc .vmem S256x32 .f32) (harg2 : arg2.IsWhole)
    (arg3 : Memref sig .tc .vmem S32x4096 .f32) (harg3 : arg3.IsWhole)
    (arg4 : Memref sig .tc .vmem S256x4096 .f32) (harg4 : arg4.IsWhole)
    (arg5 : Memref sig .tc .vmem S256x1 .f32) (harg5 : arg5.IsWhole)
    (x0 : Vec F S256x4096 .f32) (x1 : Vec F S256x32 .f32) (x2 : Vec F S32x4096 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k0_pay1 x0 x1 x2)
            ∗ owns (c : Thread nD τ) arg5 fullShare (k0_pay2 x0 x1 x2)) -∗ K ⟨⟩))
      ⊢ wp frame (wpE (defs₀ (F := F)) Variants.none c none) E
          (cc0__effw_kernel i arg1 harg1 arg2 harg2 arg3 harg3 arg4 harg4 arg5 harg5) K := by
  simp only [cc0__effw_kernel_eq_skeleton]; unfold cc0__effw_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_whole_rect _ _ zeros2, readAt_whole_rect _ _ zeros2, readAt_whole_rect _ _ zeros2,
      readAt_whole_rect _ _ zeros2]
  iexists _; isplitr
  swap; · iexact H4
  ipureintro
  rw [read_writes_whole_rect _ _ zeros2, readAt_whole_rect _ _ zeros2, readAt_whole_rect _ _ zeros2,
    readAt_whole_rect _ _ zeros2]

/-- What the body is called with at tile t: the invariant, what the core owes, and the five current staging
    buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any tile: the inputs' buffers hold their tiles, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first call, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
/-
  The second kernel's body, run once per control case of its two conditionals on the contraction
  coordinate k, over any whole staging memrefs: at k = 0 the accumulator is cleared and then gains this
  step's product; at k = 1, 2 it gains the product; at k = 3 it gains the product and the output tile
  becomes the accumulator times the broadcast scale row. Where the output tile is not stored it is
  handed back exactly as found.
-/
import proofs.«154487_j26989574488653_1_alg».proof.Proof.Gen.KernelIdeal.Launch
import proofs.«154487_j26989574488653_1_alg».proof.Proof.Gen.KernelIdeal.Skeleton
import proofs.«154487_j26989574488653_1_alg».proof.Proof.Gen.KernelIdeal.Points
import Idealize.ShloMosaic.Lib.Pipeline.FrameBody
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The two conditions, decided from the contraction coordinate

The contraction coordinate k ranges over four values, so each condition's truth is settled by looking at the four. -/

/-- The contraction coordinate is below four. -/
theorem body1_k_lt (i : grid1.Coords) : (i 2).val < 4 := (i 2).isLt

/-- Over the four values of k, the first condition (k compared with 0, widened, compared with 0 again) holds exactly at k = 0. -/
theorem body1_first_cond_fin : ∀ k : Fin 4,
    (Scalar.cmpi .ne (Scalar.extui (Scalar.cmpi .eq (BitVec.ofNat 32 k.val) 0#32)) 0#32 = 1#1) ↔ k.val = 0 := by decide

/-- Over the four values of k, the second condition (k compared with 3, widened, compared with 0) holds exactly at k = 3. -/
theorem body1_last_cond_fin : ∀ k : Fin 4,
    (Scalar.cmpi .ne (Scalar.extui (Scalar.cmpi .eq (BitVec.ofNat 32 k.val) 3#32)) 0#32 = 1#1) ↔ k.val = 3 := by decide

/-- The first conditional is taken exactly at k = 0. -/
theorem body1_first_cond_iff (i : grid1.Coords) :
    (Scalar.cmpi .ne (Scalar.extui (Scalar.cmpi .eq (BitVec.ofNat 32 (i 2).val) 0#32)) 0#32 = 1#1) ↔ (i 2).val = 0 :=
  body1_first_cond_fin ⟨(i 2).val, body1_k_lt i⟩

/-- The second conditional is taken exactly at k = 3. -/
theorem body1_last_cond_iff (i : grid1.Coords) : (k1_cond2 i = 1#1) ↔ (i 2).val = 3 :=
  body1_last_cond_fin ⟨(i 2).val, body1_k_lt i⟩

/-! ## Whole-buffer loads and stores

Every access of the body goes through the rectangle that starts at the origin and has the buffer's own extents: a
load through it reads the contents, a store through it replaces them, and a load after such a store reads the stored
value back. -/

/-- The offsets of every access: zero on both axes. -/
theorem body1_zeros : (![0, 0] : Fin 2 → Nat) = fun _ => 0 := by
  funext a; match a with
  | ⟨0, _⟩ => rfl
  | ⟨1, _⟩ => rfl

/-- After a store through the whole-shape rectangle at the origin, made last, the buffer reads as the stored value,
    whatever was stored before and whatever the buffer held: that one store covers every index. -/
theorem body1_read_writes_cons_unit_zero {Val : EltTy → Type} [∀ e, Nonempty (Val e)] {sig : RefSig} {κ : Kind} {sp : Space}
    {S : Shape} {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨(⟨Rect.unit off S.size inb, w⟩ : View.Piece Val S e), List.mem_cons_self,
    View.mem_set_unit_zero h inb y⟩)).trans (View.canon_cons_unit_zero h inb w L)

/-- A load of a whole 1024×1024 tile reads the tile's contents. -/
theorem body1_load_tile (v : View sig .tc .vmem S1024x1024 .f32) (f : v.ty.Contents (Elt F)) :
    v.readAt (Elt F) (Rect.unit (s := S1024x1024) ![0, 0] S1024x1024.size inb_S1024x1024_S1024x1024_0_0).toLoadRect f = v.read (Elt F) f := by
  rw [View.readAt_eq_ld]; exact View.ld_unit_zero (S := S1024x1024) body1_zeros inb_S1024x1024_S1024x1024_0_0 _

/-- A load of the whole 1×1024 scale row reads the row's contents. -/
theorem body1_load_row (v : View sig .tc .vmem S1x1024 .f32) (f : v.ty.Contents (Elt F)) :
    v.readAt (Elt F) (Rect.unit (s := S1x1024) ![0, 0] S1x1024.size inb_S1x1024_S1x1024_0_0).toLoadRect f = v.read (Elt F) f := by
  rw [View.readAt_eq_ld]; exact View.ld_unit_zero (S := S1x1024) body1_zeros inb_S1x1024_S1x1024_0_0 _

/-- A 1024×1024 tile whose last store was of the whole tile reads as that store's value. -/
theorem body1_store_tile (v : View sig .tc .vmem S1024x1024 .f32) (f : v.ty.Contents (Elt F)) (w : Vec F S1024x1024 .f32)
    (L : List (View.Piece (Elt F) S1024x1024 .f32)) :
    v.read (Elt F) (v.writes (Elt F) f (⟨Rect.unit ![0, 0] S1024x1024.size inb_S1024x1024_S1024x1024_0_0, w⟩ :: L)) = w :=
  body1_read_writes_cons_unit_zero (S := S1024x1024) v f body1_zeros inb_S1024x1024_S1024x1024_0_0 w L

/-- A whole-tile load made after one whole-tile store reads the stored value back. -/
theorem body1_store_load_tile (v : View sig .tc .vmem S1024x1024 .f32) (w : Vec F S1024x1024 .f32) :
    v.readCov [(⟨Rect.unit ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w :=
  View.readCov_unit_zero (S := S1024x1024) v body1_zeros inb_S1024x1024_S1024x1024_0_0 w

/-! ## The body, case by case -/

/-- k = 0: the scratch at anything in, at this step's product over a cleared accumulator out; the output tile untouched. -/
theorem run1_first (c : Dev nD) (E : Set ℕ) (i : grid1.Coords) (hk : (i 2).val = 0)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .f32) (x2 : Vec F S1x1024 .f32) (y : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare y ∗ owns (c : Thread nD τ) arg7 fullShare (k1_pay2 x0 x1 k1_pay1)) -∗ K ⟨⟩))
      ⊢ wp frame (wpE (defs₀ (F := F)) Variants.none c none) E (cc1__main_kernel i arg3 harg3 arg4 harg4 arg5 harg5 arg6 harg6 arg7 harg7) K := by
  -- the first conditional is taken, the second is not
  have hc1 : (Scalar.cmpi .ne (Scalar.extui (Scalar.cmpi .eq (BitVec.ofNat 32 (i 2).val) 0#32)) 0#32 = 1#1) :=
    (body1_first_cond_iff i).mpr hk
  have hc2 : ¬ (k1_cond2 i = 1#1) := fun h => by have := (body1_last_cond_iff i).mp h; omega
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the scratch ends at its last store: the product of the two loaded tiles added to what was loaded from the scratch,
  -- and that load came after the clearing store, so it read the zeros back
  rw [body1_store_tile, body1_load_tile, body1_load_tile]
  sl_unfold_run_names
  rw [body1_store_load_tile]

/-- k = 1, 2: the scratch at `acc` in, at `acc` plus this step's product out; the output tile untouched. -/
theorem run1_mid (c : Dev nD) (E : Set ℕ) (i : grid1.Coords) (hk0 : (i 2).val ≠ 0) (hk3 : (i 2).val ≠ 3)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .f32) (x2 : Vec F S1x1024 .f32) (y acc : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y ∗ owns (c : Thread nD τ) arg7 fullShare acc
        ∗ (iprop(owns (c : Thread nD τ) arg3 fullShare x0 ∗ owns (c : Thread nD τ) arg4 fullShare x1 ∗ owns (c : Thread nD τ) arg5 fullShare x2
            ∗ owns (c : Thread nD τ) arg6 fullShare y ∗ owns (c : Thread nD τ) arg7 fullShare (k1_pay2 x0 x1 acc)) -∗ K ⟨⟩))
      ⊢ wp frame (wpE (defs₀ (F := F)) Variants.none c none) E (cc1__main_kernel i arg3 harg3 arg4 harg4 arg5 harg5 arg6 harg6 arg7 harg7) K := by
  -- neither conditional is taken
  have hc1 : ¬ (Scalar.cmpi .ne (Scalar.extui (Scalar.cmpi .eq (BitVec.ofNat 32 (i 2).val) 0#32)) 0#32 = 1#1) :=
    fun h => hk0 ((body1_first_cond_iff i).mp h)
  have hc2 : ¬ (k1_cond2 i = 1#1) := fun h => hk3 ((body1_last_cond_iff i).mp h)
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the scratch ends at its one store, over the three tiles as loaded
  rw [body1_store_tile, body1_load_tile, body1_load_tile, body1_load_tile]

/-- k = 3: the scratch at `acc` in, at `acc` plus this step's product out; the output tile at anything in, at the
    new accumulator times the broadcast scale row out. -/
theorem run1_last (c : Dev nD) (E : Set ℕ) (i : grid1.Coords) (hk : (i 2).val = 3)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .f32) (x2 : Vec F S1x1024 .f32) (acc : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare acc
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 acc) x2) ∗ owns (c : Thread nD τ) arg7 fullShare (k1_pay2 x0 x1 acc)) -∗ K ⟨⟩))
      ⊢ wp frame (wpE (defs₀ (F := F)) Variants.none c none) E (cc1__main_kernel i arg3 harg3 arg4 harg4 arg5 harg5 arg6 harg6 arg7 harg7) K := by
  -- the first conditional is not taken, the second is
  have hc1 : ¬ (Scalar.cmpi .ne (Scalar.extui (Scalar.cmpi .eq (BitVec.ofNat 32 (i 2).val) 0#32)) 0#32 = 1#1) :=
    fun h => by have := (body1_first_cond_iff i).mp h; omega
  have hc2 : (k1_cond2 i = 1#1) := (body1_last_cond_iff i).mpr hk
  simp only [cc1__main_kernel_eq_skeleton]; unfold cc1__main_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    -- the output tile ends at its one store: the accumulator as loaded after its update, times the scale row as loaded
    rw [body1_store_tile, body1_load_row]
    sl_unfold_run_names
    rw [body1_store_load_tile, body1_load_tile, body1_load_tile, body1_load_tile]
  iexists _; isplitr
  swap; · iexact H4
  ipureintro
  -- the scratch ends at its one store, over the three tiles as loaded
  sl_unfold_run_names
  rw [body1_store_tile, body1_load_tile, body1_load_tile, body1_load_tile]

end Cert.KernelIdeal.Hand

end
-- ==== Proof.KI.Reg1.lean ====
/-
  The second pallas_call (grid 4×4×4 over row tile i, column tile j, contraction tile k; k fastest):
  its proof data and its body obligation, at any float instance. A 1024×1024 accumulator lives in a
  scratch buffer across the four k-steps of an (i, j) pair: cleared at k = 0, at every k it gains the
  product of the x tile (i, k) with the transposed eff tile (j, k), and at k = 3 the output tile (i, j)
  is the accumulator times the scale row of column tile j. The output tile is untouched at k < 3.
-/
import proofs.«154487_j26989574488653_1_alg».proof.Proof.Gen.KernelIdeal.Launch
import proofs.«154487_j26989574488653_1_alg».proof.Proof.Gen.KernelIdeal.Skeleton
import proofs.«154487_j26989574488653_1_alg».proof.Proof.Gen.KernelIdeal.Points
import proofs.«154487_j26989574488653_1_alg».proof.Proof.KI.Reg1Runs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents the region is entered from, per core: a parameter. -/
variable (V : (c : Dev nD) → (b : Ref sig .tc) → Buf (Elt F) ((c : Thread nD τ).loc b))

/-- Window w's tile at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid point n: the partial product over the k-steps of the current (i, j) pair
    up to and including this one. -/
def accAt1 (c : Dev nD) : (n : ℕ) → n < cfg1.N → Vec F S1024x1024 .f32
  | 0, h => k1_pay2 (iblk1 V c 0 ⟨0, h⟩) (iblk1 V c 1 ⟨0, h⟩) k1_pay1
  | n + 1, h =>
    if (n + 1) % 4 = 0 then k1_pay2 (iblk1 V c 0 ⟨n + 1, h⟩) (iblk1 V c 1 ⟨n + 1, h⟩) k1_pay1
    else k1_pay2 (iblk1 V c 0 ⟨n + 1, h⟩) (iblk1 V c 1 ⟨n + 1, h⟩) (accAt1 c n (Nat.lt_of_succ_lt h))

theorem accAt1_reset (c : Dev nD) (t : Fin cfg1.N) (hk : t.val % 4 = 0) :
    accAt1 V c t.val t.isLt = k1_pay2 (iblk1 V c 0 t) (iblk1 V c 1 t) k1_pay1 := by
  obtain ⟨n, hn⟩ := t
  cases n with
  | zero => rfl
  | succ n => exact if_pos hk

theorem accAt1_step (c : Dev nD) (t : Fin cfg1.N) (hk : ¬ t.val % 4 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) hk
  | succ n => exact if_neg hk

/-- The invariant between grid points: before the first point the scratch holds anything; after point n
    it holds the accumulator of point n. The core's other scoped buffers (at anything) and the generator
    register ride along. -/
def PhiS1 (c : Dev nD) : (n : ℕ) → n ≤ cfg1.N → sProp 𝕄
  | 0, _ => Pipeline.ΦA spec1 c
  | n + 1, hn => iprop(owns (c : Thread nD τ) (Memref.whole cc1_scratch0) fullShare (accAt1 V c n hn)
      ∗ Pipeline.scopedRestBut (Ix := Unit) (Name := ℕ) (U := UR sig nD τ) (Lvl := ℕ) (Val := Elt F) spec1 c [cc1_scratch0]
      ∗ (∃ r, prngReg c r))

/-- The proof data of the second call on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

/-! ## The schedule of the grid, decided over its 64 points -/

/-- The contraction coordinate is the point's position modulo 4. -/
theorem coordK1 : ∀ t : Fin cfg1.N, (grid1.coords t 2).val = t.val % 4 :=
  (by decide +kernel : ∀ t : Fin grid1.N, (grid1.coords t 2).val = t.val % 4)

/-- The output window is idle away from the last contraction step, -/
theorem idleAt1_3 : ∀ t : Fin cfg1.N, ¬ t.val % 4 = 3 → cfg1.idle 3 (grid1.coords t) = true :=
  (by decide +kernel : ∀ t : Fin grid1.N, ¬ t.val % 4 = 3 → idle1 3 (grid1.coords t) = true)
/-- and live at it. -/
theorem liveAt1_3 : ∀ t : Fin cfg1.N, t.val % 4 = 3 → cfg1.idle 3 (grid1.coords t) = false :=
  (by decide +kernel : ∀ t : Fin grid1.N, t.val % 4 = 3 → idle1 3 (grid1.coords t) = false)
/-- It is not written back away from the last contraction step. -/
theorem noFlush1_3 (t : Fin cfg1.N) (h : ¬ t.val % 4 = 3) : (cfg1.win 3).flush t = false := by
  cases hf : (cfg1.win 3).flush t with
  | false => rfl
  | true => exact absurd ((flush1_3 t).mp hf) h

/-! ## The inputs' staging buffers hold their tiles at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The invariant, spelt -/

local notation "Rest1" c => Pipeline.scopedRestBut (Ix := Unit) (Name := ℕ) (U := UR sig nD τ) (Lvl := ℕ) (Val := Elt F) spec1 c [cc1_scratch0]

/-- Before the first point: the scratch at anything, the other scoped buffers, the generator register. -/
theorem PhiA1_eq (c : Dev nD) :
    (Pipeline.ΦA spec1 c : sProp 𝕄)
      = iprop(((∃ d, owns (c : Thread nD τ) (Memref.whole cc1_scratch0) fullShare d) ∗ Rest1 c) ∗ (∃ r, prngReg c r)) := by
  unfold Pipeline.ΦA
  rw [Pipeline.scopedRest_split_of_list spec1 c [cc1_scratch0] (by decide) (by decide)]
  simp only [bigSepL_singleton, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) (Memref.whole cc1_scratch0) fullShare (accAt1 V c n hn) ∗ (Rest1 c) ∗ (∃ r, prngReg c r)) := rfl

theorem PhiS1_pos (c : Dev nD) (n : ℕ) (h : n ≤ cfg1.N) (hz : n ≠ 0) :
    PhiS1 V c n h = iprop(owns (c : Thread nD τ) (Memref.whole cc1_scratch0) fullShare (accAt1 V c (n - 1) (by omega)) ∗ (Rest1 c) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The body at a point -/

/-- Each window's current staging memref at a point, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]
theorem leaves1_2 (c : Dev nD) (t : Fin cfg1.N) :
    (dat1 V c).leavesExact 2 t = owns (c : Thread nD τ) (ms1_2 t) fullShare (iblk1 V c 2 t) := by
  rw [← after1_2]
theorem leaves1_3_live (c : Dev nD) (t : Fin cfg1.N) (h : t.val % 4 = 3) :
    (dat1 V c).leavesExact 3 t = owns (c : Thread nD τ) (ms1_3 t) fullShare (k1_pay3 (accAt1 V c t.val t.isLt) (iblk1 V c 2 t)) := by
  rw [← after1_3]; unfold Dat.leavesExact; rw [liveAt1_3 t h]

/-- The body at any point, by the contraction step it is at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  have hk : (grid1.coords t 2).val = t.val % 4 := coordK1 t
  by_cases h0 : t.val % 4 = 0
  · have h3 : ¬ t.val % 4 = 3 := by omega
    rw [Dat.leavesExact_idle (dat1 V c) 3 t (idleAt1_3 t h3) (noFlush1_3 t h3)]
    rw [accAt1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (run1_first c Set.univ (grid1.coords t) (hk.trans h0) _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (run1_first c Set.univ (grid1.coords t) (hk.trans h0) _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt1_step V c t h0]
    rw [PhiS1_castSucc V c t, PhiS1_pos V c _ _ hz]
    by_cases h3 : t.val % 4 = 3
    · rw [leaves1_3_live V c t h3, accAt1_step V c t h0]
      iintro ⟨⟨HS, HR, Hg⟩, Ho, ⟨%d0, H0⟩, ⟨%d1, H1⟩, ⟨%d2, H2⟩, ⟨%d3, H3⟩⟩
      iapply (run1_last c Set.univ (grid1.coords t) (hk.trans h3) _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h3) (noFlush1_3 t h3)]
      iintro ⟨⟨HS, HR, Hg⟩, Ho, ⟨%d0, H0⟩, ⟨%d1, H1⟩, ⟨%d2, H2⟩, ⟨%d3, H3⟩⟩
      iapply (run1_mid c Set.univ (grid1.coords t) (fun e => h0 (hk.symm.trans e)) (fun e => h3 (hk.symm.trans e)) _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the second call, at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After the last point the invariant gives the scoped rest back, the accumulator's contents forgotten. -/
theorem hout1 (c : Dev nD) : (dat1 (F := F) V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, HR, Hg⟩
  isplitl [HS HR]
  · isplitl [HS]
    · iexists _; iexact HS
    iexact HR
  iexact Hg

end Cert.KernelIdeal.Hand

end
-- ==== Proof.KI.RunCond.lean ====
/-
  The run of the whole program with its result named. The program is: first kernel region, a stretch
  of host operations (the scale column  magnitude / norm  and two reshapes), second kernel region, one
  last reshape. Given, for each kernel region, a record of its obligations entered from the buffer
  contents before it and left at the contents after it, every weakly fair execution terminates, each
  argument array ends as launched, and the result buffer ends at the last valuation's value: the last
  reshape applied to what the second region left.
-/
import proofs.«154487_j26989574488653_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unification, which must unfold plain definitions in types
set_option backward.isDefEq.respectTransparency.types false in
/-- For any contents the regions leave (`outs`) and any proof data, given one segment record per kernel region
    pinned to the valuations before and after it, the program terminates from memory `m` with zero counters,
    the result buffer holds the last valuation's value and every argument holds what it was launched with. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v6) = V4 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨hpre0 c, hpost0 c, hpre1 c, hpost1 c, sep_mono .rfl (hE2 c)⟩)
    (hinit := ?_) (QY := fun c s => s.mem ((c.tc : Thread nD τ).loc main_v6) = V4 m outs c main_v6 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c)⟩
    · iexact HSI

end Cert.KernelIdeal.Hand

end
-- ==== Proof.KI.Segs.lean ====
/-
  The two kernel regions as segments of the program's run, and the run itself.
  Region 0 is entered from the launch memory; what it leaves in its two result arrays is what its
  write-backs fold to. The host stretch then forms the scale column magnitude / norm and reshapes x.
  Region 1 is entered from those contents; what it leaves in its result array is again the fold of its
  write-backs. From one record per region the program's frame and its run with the result named follow.
-/
import proofs.«154487_j26989574488653_1_alg».proof.Proof.KI.Reg0
import proofs.«154487_j26989574488653_1_alg».proof.Proof.KI.Reg1
import proofs.«154487_j26989574488653_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents region 0 is entered from: the launch memory. -/
abbrev Ve0 : (c : Dev nD) → (b : Ref sig .tc) → Buf (Elt F) ((c : Thread nD τ).loc b) := fun c b => Gen.V0 m c b

/-- What region 0 leaves: its arrays at the fold of its write-backs, every other buffer as entered. -/
def outs1 : Gen.Outs (F := F) := fun _ r c =>
  Pipeline.withArrays spec0 c (Gen.V0 m c) (fun w => (dat0 (Ve0 m) c).arrAt w cfg0.N) (Proc.devRef .tc r)

/-- The contents region 1 is entered from: after region 0 and the host stretch. -/
abbrev Ve1 : (c : Dev nD) → (b : Ref sig .tc) → Buf (Elt F) ((c : Thread nD τ).loc b) := fun c b => Gen.V2 m (outs1 m) c b

/-- What both regions leave, by position in the run. -/
def outs : Gen.Outs (F := F) := fun j r c =>
  if j = 3 then Pipeline.withArrays spec1 c (Gen.V2 m (outs1 m) c) (fun w => (dat1 (Ve1 m) c).arrAt w cfg1.N) (Proc.devRef .tc r)
  else outs1 m j r c

theorem outs_v0_0 (c : Dev nD) : outs m 1 main_v0_0 c = (dat0 (Ve0 m) c).arrAt 3 cfg0.N := by
  unfold outs
  rw [if_neg (by decide)]
  unfold outs1
  exact Pipeline.withArrays_arr spec0 launch0.win.arr_inj c _ _ 3
theorem outs_v0_1 (c : Dev nD) : outs m 1 main_v0_1 c = (dat0 (Ve0 m) c).arrAt 4 cfg0.N := by
  unfold outs
  rw [if_neg (by decide)]
  unfold outs1
  exact Pipeline.withArrays_arr spec0 launch0.win.arr_inj c _ _ 4
theorem outs_v5 (c : Dev nD) : outs m 3 main_v5 c = (dat1 (Ve1 m) c).arrAt 3 cfg1.N := by
  unfold outs
  rw [if_pos rfl]
  exact Pipeline.withArrays_arr spec1 launch1.win.arr_inj c _ _ 3
/-- The valuation region 1 is entered from does not depend on what region 1 leaves. -/
theorem V2_outs (c : Dev nD) : Gen.V2 m (outs m) c = Gen.V2 m (outs1 m) c := by
  have h0 : outs m 1 main_v0_0 c = outs1 m 1 main_v0_0 c := by unfold outs; rw [if_neg (by decide)]
  have h1 : outs m 1 main_v0_1 c = outs1 m 1 main_v0_1 c := by unfold outs; rw [if_neg (by decide)]
  show StableHlo.after hostOps1 (Gen.V1 m (outs m) c) = StableHlo.after hostOps1 (Gen.V1 m (outs1 m) c)
  unfold Gen.V1
  rw [h0, h1]

namespace Segs

/-! ## The valuations at the regions' boundaries, read at the core's references -/

/-- What region 0 leaves, read at the core's references. -/
abbrev Vx0 : (c : Dev nD) → (b : Ref sig .tc) → Buf (Elt F) ((c : Thread nD τ).loc b) := fun c b => Gen.V1 m (outs m) c b
/-- What region 1 leaves, read at the core's references. -/
abbrev Vx1 : (c : Dev nD) → (b : Ref sig .tc) → Buf (Elt F) ((c : Thread nD τ).loc b) := fun c b => Gen.V3 m (outs m) c b

/-- At region 0's exit each of its arrays holds the fold of its write-backs: the three inputs what they held at
    entry, the two outputs what the unknowns name. -/
theorem hF0 (c : Dev nD) (w : Fin cfg0.W) : (dat0 (Ve0 m) c).arrAt w cfg0.N = Vx0 m c (Pipeline.arrRef spec0 w) := by
  match w with
  | ⟨0, _⟩ => exact ((dat0 (Ve0 m) c).arrAt_in 0 rfl _).trans ((A_eq0 (Ve0 m) c 0).trans (Gen.V1_of m (outs m) c _ (by decide)).symm)
  | ⟨1, _⟩ => exact ((dat0 (Ve0 m) c).arrAt_in 1 rfl _).trans ((A_eq0 (Ve0 m) c 1).trans (Gen.V1_of m (outs m) c _ (by decide)).symm)
  | ⟨2, _⟩ => exact ((dat0 (Ve0 m) c).arrAt_in 2 rfl _).trans ((A_eq0 (Ve0 m) c 2).trans (Gen.V1_of m (outs m) c _ (by decide)).symm)
  | ⟨3, _⟩ =>
    refine (outs_v0_0 m c).symm.trans ?_
    show outs m 1 main_v0_0 c = Gen.V1 m (outs m) c main_v0_0
    unfold Gen.V1
    rw [Function.update_of_ne (StableHlo.devRef_ne_of_ne (by decide) : (Proc.devRef .tc main_v0_0 : DevRef τ sig) ≠ Proc.devRef .tc main_v0_1), Function.update_self]
  | ⟨4, _⟩ =>
    refine (outs_v0_1 m c).symm.trans ?_
    show outs m 1 main_v0_1 c = Gen.V1 m (outs m) c main_v0_1
    unfold Gen.V1
    rw [Function.update_self]

/-- Every buffer that is no array of region 0 is left as entered. -/
theorem hrest0 (c : Dev nD) : ∀ b, b ∉ Finset.univ.image (Pipeline.arrRef spec0) → Vx0 m c b = Ve0 m c b :=
  fun b hb => Gen.V1_of m (outs m) c b fun hmem => by
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem (List.not_mem_nil)

/-- At region 1's exit each of its arrays holds the fold of its write-backs. -/
theorem hF1 (c : Dev nD) (w : Fin cfg1.W) : (dat1 (Ve1 m) c).arrAt w cfg1.N = Vx1 m c (Pipeline.arrRef spec1 w) := by
  match w with
  | ⟨0, _⟩ => exact ((dat1 (Ve1 m) c).arrAt_in 0 rfl _).trans ((A_eq1 (Ve1 m) c 0).trans (((Gen.V3_of m (outs m) c _ (by decide)).trans (congrFun (V2_outs m c) _))).symm)
  | ⟨1, _⟩ => exact ((dat1 (Ve1 m) c).arrAt_in 1 rfl _).trans ((A_eq1 (Ve1 m) c 1).trans (((Gen.V3_of m (outs m) c _ (by decide)).trans (congrFun (V2_outs m c) _))).symm)
  | ⟨2, _⟩ => exact ((dat1 (Ve1 m) c).arrAt_in 2 rfl _).trans ((A_eq1 (Ve1 m) c 2).trans (((Gen.V3_of m (outs m) c _ (by decide)).trans (congrFun (V2_outs m c) _))).symm)
  | ⟨3, _⟩ =>
    refine (outs_v5 m c).symm.trans ?_
    show outs m 3 main_v5 c = Gen.V3 m (outs m) c main_v5
    unfold Gen.V3
    rw [Function.update_self]

/-- Every buffer that is no array of region 1 is left as entered. -/
theorem hrest1 (c : Dev nD) : ∀ b, b ∉ Finset.univ.image (Pipeline.arrRef spec1) → Vx1 m c b = Ve1 m c b :=
  fun b hb => (Gen.V3_of m (outs m) c b fun hmem => by
    rcases List.mem_cons.mp hmem with rfl | hmem
    · exact hb (Finset.mem_image.mpr ⟨3, Finset.mem_univ _, rfl⟩)
    · exact absurd hmem (List.not_mem_nil)).trans (congrFun (V2_outs m c) _)

/-! ## The proof data family and the thread state -/

/-- Each region's proof data, at the contents the region is entered from. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- No core owes another anything: no level is assigned. -/
abbrev L0 : GSem nD τ sig → Finset Unit := fun _ => ∅
abbrev lv0 : GSem nD τ sig → Unit → ℕ := fun _ _ => 0

/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)

/-- The rest state between items: the same at every boundary. -/
abbrev E : Fin 3 → Dev nD → sProp 𝕄 := fun _ c => R (F := F) c

/-- The launch makes the rest state on every core. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (BI.emp : sProp 𝕄)) c)) ∗ levAts L0 lv0)
      ⊢ (|={Set.univ}=> bigSep Finset.univ (E (F := F) 0) : sProp 𝕄) := by
  refine Pipeline.initEach L0 lv0 fun c => ?_
  iintro ⟨⟨-, HO, -, Hp, -⟩, -⟩
  imodintro
  isplitl [Hp]; · iexists _; iexact Hp
  iexists ∅; iexact HO

/-- The rest state ends owing nothing. -/
theorem hE2 (c : Dev nD) : E (F := F) 2 c ⊢ (iprop(∃ W, owes (c : Thread nD τ) (0 : CellTallies nD τ sig Unit) W) : sProp 𝕄) := by
  iintro ⟨-, HO⟩
  iexact HO

/-- The launch's ghost element is the pipelines' own. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-! ## The regions as segments -/

set_option backward.isDefEq.respectTransparency.types false in
/-- Region 0 over the thread state: entered from every unscoped buffer at the launch memory, left at the
    valuation after it. Its arrays are split out of the unscoped buffers at entry and put back at the exit
    contents; the generator register goes into the region's invariant and comes back; nothing is owed. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L0 lv0 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation after the host stretch,
    left at the valuation after it. Its invariant before the first point is made from the generator register and
    the scoped buffers, and after the last point gives them back. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L0 lv0 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V2_outs m c]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (Ve1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Segs

/-! ## The run -/

/-- The frame: every weakly fair execution terminates and the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () Variants.none Segs.L0 Segs.lv0 (fun _ _ => rfl) ρ (outs m) (Segs.pdats m) 0 (fun _ => iprop(emp))
    (initOf (Pipeline.cells cfgs cellOf_inj) (Pipeline.launchToks cfgs cellOf_inj)) Segs.hu0 Segs.E (Segs.hE0 ρ) Segs.hE2
    (Segs.reg0 m) (fun _ => .rfl) (fun _ => .rfl) (Segs.reg1 m) (fun _ => .rfl) (fun _ => .rfl)

/-- The run with the result named: the result buffer ends at the last valuation's value. -/
theorem run_value : θ_run defs (onTc (τ := τ) (main (F := F))) ⟨m, fun _ => 0, ρ⟩ (fun r => ∀ c : Dev nD,
      r.2.mem ((c.tc : Thread nD τ).loc main_v6) = Gen.V4 m (outs m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m emb₁ () Variants.none Segs.L0 Segs.lv0 (fun _ _ => rfl) ρ (outs m) (Segs.pdats m) 0 (fun _ => iprop(emp))
    (initOf (Pipeline.cells cfgs cellOf_inj) (Pipeline.launchToks cfgs cellOf_inj)) Segs.hu0 Segs.E (Segs.hE0 ρ) Segs.hE2
    (Segs.reg0 m) (fun _ => .rfl) (fun _ => .rfl) (Segs.reg1 m) (fun _ => .rfl) (fun _ => .rfl)

end Cert.KernelIdeal.Hand

end
-- ==== Proof.Spec.lean ====
/-
  The mathematics of the claim, over the extended reals, with no program in sight.

  For an output row o the effective weight is  eff[o,i] = W[o,i] + Σ_r B[o,r]·A[r,i]  and its norm
  nrm[o] = sqrt(Σ_i eff[o,i]²).  One side computes  (Σ_i x[b,s,i]·eff[o,i]) · (mag[o] / nrm[o]),  the
  other  ((Σ_i x[b,s,i]·W[o,i]) + Σ_r (Σ_i x[b,s,i]·A[r,i])·B[o,r]) / nrm[o] · mag[o].  When every entry
  is a real number the two numerators agree by distributing x over the sum that defines eff and swapping
  the two finite sums; when moreover nrm[o] > 0 the quotient by nrm[o] is the product with its inverse,
  and the two sides differ only by the order of three real factors.
-/
import Idealize.ShloMosaic.PureOps.Ideal
import Idealize.ShloMosaic.Lib.ValueIdx

noncomputable section

namespace Cert.Spec

open Idealize.ShloMosaic Idealize.ShloMosaic.ValueIdx

abbrev TX := (⟨3, ![2, 2048, 4096]⟩ : Shape).Idx → EReal
abbrev TW := (⟨2, ![4096, 4096]⟩ : Shape).Idx → EReal
abbrev TA := (⟨2, ![32, 4096]⟩ : Shape).Idx → EReal
abbrev TB := (⟨2, ![4096, 32]⟩ : Shape).Idx → EReal
abbrev TM := (⟨1, ![4096]⟩ : Shape).Idx → EReal

/-- The effective weight  W + B·A  at row o, column i. -/
def eff (W : TW) (A : TA) (B : TB) (o i : Fin 4096) : EReal :=
  W (ix2 o i) + ∑ r : Fin 32, B (ix2 o r) * A (ix2 r i)

/-- The norm of row o of the effective weight. -/
def nrm (W : TW) (A : TA) (B : TB) (o : Fin 4096) : EReal :=
  Ideal.sqrt (∑ i : Fin 4096, eff W A B o i * eff W A B o i)

/-- One matrix product against the effective weight, then the scale  mag / nrm. -/
def fused (x : TX) (W : TW) (A : TA) (B : TB) (mag : TM) (b : Fin 2) (s : Fin 2048) (o : Fin 4096) : EReal :=
  (∑ i : Fin 4096, x (ix3 b s i) * eff W A B o i) * Ideal.div (mag (ix1 o)) (nrm W A B o)

/-- The base product plus the low-rank path, divided by the norm, times the magnitude. -/
def split (x : TX) (W : TW) (A : TA) (B : TB) (mag : TM) (b : Fin 2) (s : Fin 2048) (o : Fin 4096) : EReal :=
  Ideal.div ((∑ i : Fin 4096, x (ix3 b s i) * W (ix2 o i))
      + ∑ r : Fin 32, (∑ i : Fin 4096, x (ix3 b s i) * A (ix2 r i)) * B (ix2 o r)) (nrm W A B o) * mag (ix1 o)

/-- Every entry of an array is a real number. -/
def AllReal {S : Shape} (f : S.Idx → EReal) : Prop := ∀ j, ∃ r : ℝ, f j = (r : EReal)

/-- The coercion of the reals into the extended reals commutes with finite sums. -/
theorem coe_finsum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: distributing x over  w + Σ_r b_r·a_r  and swapping the two finite sums. -/
theorem real_numerators {ι κ : Type*} [Fintype ι] [Fintype κ] (x w : ι → ℝ) (a : κ → ι → ℝ) (b : κ → ℝ) :
    ∑ i, x i * (w i + ∑ r, b r * a r i) = (∑ i, x i * w i) + ∑ r, (∑ i, x i * a r i) * b r := by
  simp only [mul_add, Finset.sum_add_distrib, Finset.mul_sum, Finset.sum_mul]
  congr 1
  rw [Finset.sum_comm]
  exact Finset.sum_congr rfl fun r _ => Finset.sum_congr rfl fun i _ => by ring

/-- On real entries and positive norms the two arrangements agree. -/
theorem fused_eq_split (x : TX) (W : TW) (A : TA) (B : TB) (mag : TM)
    (hx : AllReal x) (hW : AllReal W) (hA : AllReal A) (hB : AllReal B) (hm : AllReal mag)
    (hn : ∀ o, 0 < nrm W A B o) (b : Fin 2) (s : Fin 2048) (o : Fin 4096) :
    fused x W A B mag b s o = split x W A B mag b s o := by
  choose xr hxr using hx
  choose Wr hWr using hW
  choose Ar hAr using hA
  choose Br hBr using hB
  choose mr hmr using hm
  -- the effective weight is the coercion of a real
  have heff : ∀ o i, eff W A B o i
      = ((Wr (ix2 o i) + ∑ r : Fin 32, Br (ix2 o r) * Ar (ix2 r i) : ℝ) : EReal) := by
    intro o i
    simp only [eff, hWr, hAr, hBr, ← EReal.coe_mul, coe_finsum, ← EReal.coe_add]
  -- the sum of squares is a nonnegative real, so the norm is the coercion of its real square root
  have hnrm : nrm W A B o = ((Real.sqrt (∑ i : Fin 4096,
      (Wr (ix2 o i) + ∑ r : Fin 32, Br (ix2 o r) * Ar (ix2 r i))
        * (Wr (ix2 o i) + ∑ r : Fin 32, Br (ix2 o r) * Ar (ix2 r i))) : ℝ) : EReal) := by
    simp only [nrm, heff, ← EReal.coe_mul, coe_finsum, Ideal.sqrt_coe]
    rw [if_neg]
    exact not_lt.mpr (Finset.sum_nonneg fun i _ => mul_self_nonneg _)
  -- the norm is a nonzero real
  have hne : Real.sqrt (∑ i : Fin 4096,
      (Wr (ix2 o i) + ∑ r : Fin 32, Br (ix2 o r) * Ar (ix2 r i))
        * (Wr (ix2 o i) + ∑ r : Fin 32, Br (ix2 o r) * Ar (ix2 r i))) ≠ 0 := by
    have h := hn o
    rw [hnrm] at h
    exact ne_of_gt (by exact_mod_cast h)
  -- both quotients are products with the reciprocal
  simp only [fused, split, hnrm, Ideal.div_coe hne, heff, hxr, hWr, hAr, hBr, hmr,
    ← EReal.coe_mul, coe_finsum, ← EReal.coe_add]
  rw [real_numerators]
  congr 1
  ring

end Cert.Spec

end
-- ==== Proof.PreFacts.lean ====
/-
  What the precondition gives at the extended reals: every entry of the five inputs is a real number
  (|v| < +∞ excludes both infinities), and every row norm of the effective weight is positive.
-/
import proofs.«154487_j26989574488653_1_alg».proof.Pre_finite_inputs
import proofs.«154487_j26989574488653_1_alg».proof.Proof.Gen.Pre_finite_inputs
import proofs.«154487_j26989574488653_1_alg».proof.Proof.Spec
import Idealize.ShloMosaic.Lib.ReduceAll
import Idealize.ShloMosaic.Lib.StableHlo.Predicate
import Idealize.ShloMosaic.Lib.ValueIdx
import Idealize.ShloMosaic.PureOps.Ideal.Laws

set_option maxRecDepth 16384

noncomputable section

namespace Cert.PreFacts

open Idealize.ShloMosaic Idealize.ShloMosaic.ValueIdx Cert.Pre_finite_inputs

/-- The rank-0 shape has one index. -/
instance : Subsingleton S_.Idx := ⟨fun a b => funext fun d => d.elim0⟩

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞ of the precondition, read at the extended reals. -/
theorem elem_real (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.hostAbsf_def, Ideal.absf_def, Ideal.cmpf_def, Ideal.ofBits_def, htop] at h
  simp only [Ideal.cmp] at h
  rw [StableHlo.Predicate.ofBool_eq_one_iff, decide_eq_true_eq] at h
  exact real_of_abs_lt_top x h

/-- One conjunct "all entries have |v| < +∞", at any shape: every entry of v is a real number. -/
theorem allReal_of_all {s : Shape} {axes : List (Fin s.rank)} (v : FVec Ideal s .f32)
    (hb : S_.BroadcastsInDim s (![] : Fin 0 → Fin s.rank)) (hr : s.ReducesTo axes S_) (hu : 0 < S_.numel)
    (h : Host.reduce IntOp.andi (cmpf .olt (Host.absf v) (broadcastInDim s ![] hb (constant (F := Ideal) S_ .f32 0x7F800000#32)))
        (constantI S_ 1 1#1) hr hu ix0 = 1#1) :
    Cert.Spec.AllReal v := by
  intro j
  have e := Host.reduce_andi_all _ _ hr hu ix0 h j
  rw [cmpf_apply, StableHlo.Predicate.bcast_scalar hb hu] at e
  exact elem_real (v j) e

/-! The low-rank product  B·A  read at (o, i): the contraction runs over the 32 inner coordinates. -/

theorem dot_lhs_0 (i : S4096x4096.Idx) (q : dot_S4096x32_S32x4096_S4096x4096_1_0_0_1_n_n.contr.Idx) :
    (dot_S4096x32_S32x4096_S4096x4096_1_0_0_1_n_n.lhsIdx i q 0).val = (i 0).val := by
  unfold DotDims.lhsIdx
  rw [dif_neg (show ¬(0 : Fin S4096x32.rank) ∈ dot_S4096x32_S32x4096_S4096x4096_1_0_0_1_n_n.lhsBatch by decide),
    dif_pos (show (0 : Fin S4096x32.rank) ∈ dot_S4096x32_S32x4096_S4096x4096_1_0_0_1_n_n.lhsNonContracting by decide)]
  rfl
theorem dot_lhs_1 (i : S4096x4096.Idx) (q : dot_S4096x32_S32x4096_S4096x4096_1_0_0_1_n_n.contr.Idx) :
    (dot_S4096x32_S32x4096_S4096x4096_1_0_0_1_n_n.lhsIdx i q 1).val = (q ⟨0, by decide⟩).val :=
  dot_S4096x32_S32x4096_S4096x4096_1_0_0_1_n_n.lhsIdx_val_of_single rfl i q
theorem dot_rhs_0 (i : S4096x4096.Idx) (q : dot_S4096x32_S32x4096_S4096x4096_1_0_0_1_n_n.contr.Idx) :
    (dot_S4096x32_S32x4096_S4096x4096_1_0_0_1_n_n.rhsIdx i q 0).val = (q ⟨0, by decide⟩).val :=
  dot_S4096x32_S32x4096_S4096x4096_1_0_0_1_n_n.rhsIdx_val_of_single rfl i q
theorem dot_rhs_1 (i : S4096x4096.Idx) (q : dot_S4096x32_S32x4096_S4096x4096_1_0_0_1_n_n.contr.Idx) :
    (dot_S4096x32_S32x4096_S4096x4096_1_0_0_1_n_n.rhsIdx i q 1).val = (i 1).val := by
  unfold DotDims.rhsIdx
  rw [dif_neg (show ¬(1 : Fin S32x4096.rank) ∈ dot_S4096x32_S32x4096_S4096x4096_1_0_0_1_n_n.rhsBatch by decide),
    dif_pos (show (1 : Fin S32x4096.rank) ∈ dot_S4096x32_S32x4096_S4096x4096_1_0_0_1_n_n.rhsNonContracting by decide)]
  rfl

/-- (B·A)(o, i) = Σ_r B(o, r) · A(r, i). -/
theorem dot_apply (x2 : FVec Ideal S32x4096 .f32) (x3 : FVec Ideal S4096x32 .f32) (o i : Fin 4096) :
    Host.dotGeneral dot_S4096x32_S32x4096_S4096x4096_1_0_0_1_n_n none x3 x2 (ix2 o i)
      = ∑ r : Fin 32, x3 (ix2 o r) * x2 (ix2 r i) := by
  simp only [Host.dotGeneral]
  rw [Ideal.dotGeneral_apply,
    ← Equiv.sum_comp (contrEquiv1 dot_S4096x32_S32x4096_S4096x4096_1_0_0_1_n_n 32 rfl rfl).symm]
  refine Finset.sum_congr rfl fun k _ => ?_
  have hk := contrEquiv1_symm_val dot_S4096x32_S32x4096_S4096x4096_1_0_0_1_n_n 32 rfl rfl k
  have el : dot_S4096x32_S32x4096_S4096x4096_1_0_0_1_n_n.lhsIdx (ix2 o i)
      ((contrEquiv1 dot_S4096x32_S32x4096_S4096x4096_1_0_0_1_n_n 32 rfl rfl).symm k) = ix2 o k :=
    funext fun a => Fin.ext (by
      match a with
      | ⟨0, _⟩ => exact dot_lhs_0 _ _
      | ⟨1, _⟩ => exact (dot_lhs_1 _ _).trans hk)
  have er : dot_S4096x32_S32x4096_S4096x4096_1_0_0_1_n_n.rhsIdx (ix2 o i)
      ((contrEquiv1 dot_S4096x32_S32x4096_S4096x4096_1_0_0_1_n_n 32 rfl rfl).symm k) = ix2 k i :=
    funext fun a => Fin.ext (by
      match a with
      | ⟨0, _⟩ => exact (dot_rhs_0 _ _).trans hk
      | ⟨1, _⟩ => exact dot_rhs_1 _ _)
  rw [el, er]

/-- The sum over a row, read at row o: the initial value plus the sum over the 4096 columns. -/
theorem rowsum_apply (v : FVec Ideal S4096x4096 .f32) (init : FVec Ideal S_ .f32) (o : Fin 4096) :
    Host.reduceAdd v init Facts.reducesTo_S4096x4096_S4096_d1 Facts.h_S_ (ix1 o)
      = init (Shape.Idx.first Facts.h_S_) + ∑ i : Fin 4096, v (ix2 o i) := by
  simp only [Host.reduceAdd, Ideal.hostReduceAdd_def]
  rw [Ideal.hostReduceAdd_single Facts.reducesTo_S4096x4096_S4096_d1 (by decide)]
  refine congrArg (_ + ·) (Finset.sum_congr rfl fun k _ => ?_)
  exact congrArg v (funext fun a => Fin.ext (by match a with | ⟨0, _⟩ => rfl | ⟨1, _⟩ => rfl))

/-- The last conjunct "every sqrt(Σ_i e·e) > 0", e = W + B·A: every row norm of the effective weight is positive. -/
theorem nrm_pos_of_all (x1 : FVec Ideal S4096x4096 .f32) (x2 : FVec Ideal S32x4096 .f32) (x3 : FVec Ideal S4096x32 .f32)
    (hb : S_.BroadcastsInDim S4096 (![] : Fin 0 → Fin S4096.rank)) (hr : S4096.ReducesTo [0] S_) (hu : 0 < S_.numel)
    (h : Host.reduce IntOp.andi
        (cmpf .ogt
          (Host.sqrt (Host.reduceAdd
            (mulf (addf x1 (Host.dotGeneral dot_S4096x32_S32x4096_S4096x4096_1_0_0_1_n_n none x3 x2))
              (addf x1 (Host.dotGeneral dot_S4096x32_S32x4096_S4096x4096_1_0_0_1_n_n none x3 x2)))
            (constant (F := Ideal) S_ .f32 0x00000000#32) Facts.reducesTo_S4096x4096_S4096_d1 Facts.h_S_))
          (broadcastInDim S4096 ![] hb (constant (F := Ideal) S_ .f32 0x00000000#32)))
        (constantI S_ 1 1#1) hr hu ix0 = 1#1) (o : Fin 4096) :
    0 < Cert.Spec.nrm x1 x2 x3 o := by
  have e := Host.reduce_andi_all _ _ hr hu ix0 h (ix1 o)
  rw [cmpf_apply, StableHlo.Predicate.bcast_scalar hb hu] at e
  change FloatOps.cmpf .ogt (FloatOps.hostUnary .sqrt (Host.reduceAdd _ _ _ _ (ix1 o))) (Ideal.ofBits .f32 0x00000000#32) = 1#1 at e
  rw [rowsum_apply, Ideal.cmpf_def, Ideal.hostUnary_sqrt_def, constant_apply, Ideal.ofBits_zero_f32, zero_add] at e
  simp only [Ideal.cmp] at e
  rw [StableHlo.Predicate.ofBool_eq_one_iff, decide_eq_true_eq] at e
  simp only [mulf_apply, addf_apply, dot_apply] at e
  exact e

/-- The printed precondition, all ones, says: the five inputs are real-valued and every row norm is positive. -/
theorem of_pre (x0 : FVec Ideal S2x2048x4096 .f32) (x1 : FVec Ideal S4096x4096 .f32) (x2 : FVec Ideal S32x4096 .f32)
    (x3 : FVec Ideal S4096x32 .f32) (x4 : FVec Ideal S4096 .f32)
    (h : Cert.Pre_finite_inputs.fn (F := Ideal) x0 x1 x2 x3 x4 = fun _ => 1#1) :
    Cert.Spec.AllReal x0 ∧ Cert.Spec.AllReal x1 ∧ Cert.Spec.AllReal x2 ∧ Cert.Spec.AllReal x3 ∧ Cert.Spec.AllReal x4
      ∧ ∀ o : Fin 4096, 0 < Cert.Spec.nrm x1 x2 x3 o := by
  have e := congrFun h ix0
  dsimp only [Cert.Pre_finite_inputs.fn, Cert.Pre_finite_inputs.fn_part1] at e
  simp only [andi, IntOp.andi_eq_one] at e
  obtain ⟨⟨⟨⟨⟨h0, h1⟩, h2⟩, h3⟩, h4⟩, h5⟩ := e
  exact ⟨allReal_of_all x0 _ _ _ h0, allReal_of_all x1 _ _ _ h1, allReal_of_all x2 _ _ _ h2, allReal_of_all x3 _ _ _ h3,
    allReal_of_all x4 _ _ _ h4, nrm_pos_of_all x1 x2 x3 _ _ _ h5⟩

end Cert.PreFacts

end
-- ==== Proof.RefVal.lean ====
/-
  The reference's result, read back as a function of its five arguments: at every index (b, s, o) it is
  the base product plus the low-rank path, divided by the row norm of the effective weight, times the
  magnitude.
-/
import proofs.«154487_j26989574488653_1_alg».proof.Proof.Gen.ReferenceIdeal.Run
import proofs.«154487_j26989574488653_1_alg».proof.Proof.Gen.ReferenceIdeal.Read
import proofs.«154487_j26989574488653_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Idealize.ShloMosaic Idealize.ShloMosaic.ValueIdx Cert.ReferenceIdeal Cert.ReferenceIdeal.Gen Cert.ReferenceIdeal.Read

/-- The last stage of the reference is the split arrangement of the specification. -/
theorem ref_eq (x0 : (⟨S2x2048x4096, .f32⟩ : BufTy).Contents (Elt Ideal)) (x1 : (⟨S4096x4096, .f32⟩ : BufTy).Contents (Elt Ideal))
    (x2 : (⟨S32x4096, .f32⟩ : BufTy).Contents (Elt Ideal)) (x3 : (⟨S4096x32, .f32⟩ : BufTy).Contents (Elt Ideal))
    (x4 : (⟨S4096, .f32⟩ : BufTy).Contents (Elt Ideal)) :
    val_main_v14 x0 x1 x2 x3 x4 = fun j : S2x2048x4096.Idx => Cert.Spec.split x0 x1 x2 x3 x4 (j 0) (j 1) (j 2) := by
  funext j
  -- read every stage at the index j, outermost first, down to the five arguments
  rw [val_main_v14_apply, val_main_v11_apply, val_main_v13_apply, val_main_v12_apply, val_main_v8_apply,
    val_main_v10_apply, val_main_v9_apply, val_main_v7_apply, val_main_v6_apply, val_main_v0_apply,
    val_main_v2_apply, val_main_cst_apply]
  simp only [val_main_v1_apply, val_main_v5_apply, val_main_v4_apply, val_main_v3_apply]
  -- the composed index maps are the coordinate constructors: each sends (b, s, o) and the summation
  -- variable to the entry the specification names
  have e0l : ∀ k : Fin 4096, lidx_main_v0 j k = ix3 (n0 := 2) (n1 := 2048) (n2 := 4096) (j 0) (j 1) k := fun k =>
    funext fun a => Fin.ext (by match a with | ⟨0, _⟩ => rfl | ⟨1, _⟩ => rfl | ⟨2, _⟩ => rfl)
  have e0r : ∀ k : Fin 4096, ridx_main_v0 j k = ix2 (n0 := 4096) (n1 := 4096) (j 2) k := fun k =>
    funext fun a => Fin.ext (by match a with | ⟨0, _⟩ => rfl | ⟨1, _⟩ => rfl)
  have e1l : ∀ (r : Fin 32) (k : Fin 4096), lidx_main_v1 (lidx_main_v2 j r) k
      = ix3 (n0 := 2) (n1 := 2048) (n2 := 4096) (j 0) (j 1) k := fun r k =>
    funext fun a => Fin.ext (by match a with | ⟨0, _⟩ => rfl | ⟨1, _⟩ => rfl | ⟨2, _⟩ => rfl)
  have e1r : ∀ (r : Fin 32) (k : Fin 4096), ridx_main_v1 (lidx_main_v2 j r) k
      = ix2 (n0 := 32) (n1 := 4096) r k := fun r k =>
    funext fun a => Fin.ext (by match a with | ⟨0, _⟩ => rfl | ⟨1, _⟩ => rfl)
  have e2r : ∀ r : Fin 32, ridx_main_v2 j r = ix2 (n0 := 4096) (n1 := 32) (j 2) r := fun r =>
    funext fun a => Fin.ext (by match a with | ⟨0, _⟩ => rfl | ⟨1, _⟩ => rfl)
  have e6 : ∀ k : Fin 4096, idx_main_v6 (idx_main_v9 (idx_main_v10 j)) k
      = ix2 (n0 := 4096) (n1 := 4096) (j 2) k := fun k =>
    funext fun a => Fin.ext (by match a with | ⟨0, _⟩ => rfl | ⟨1, _⟩ => rfl)
  have e3l : ∀ (k : Fin 4096) (r : Fin 32), lidx_main_v3 (ix2 (n0 := 4096) (n1 := 4096) (j 2) k) r
      = ix2 (n0 := 4096) (n1 := 32) (j 2) r := fun k r =>
    funext fun a => Fin.ext (by match a with | ⟨0, _⟩ => rfl | ⟨1, _⟩ => rfl)
  have e3r : ∀ (k : Fin 4096) (r : Fin 32), ridx_main_v3 (ix2 (n0 := 4096) (n1 := 4096) (j 2) k) r
      = ix2 (n0 := 32) (n1 := 4096) r k := fun k r =>
    funext fun a => Fin.ext (by match a with | ⟨0, _⟩ => rfl | ⟨1, _⟩ => rfl)
  have e12 : idx_main_v12 (idx_main_v13 j) = ix1 (n := 4096) (j 2) :=
    funext fun a => Fin.ext (by match a with | ⟨0, _⟩ => rfl)
  -- the host operations at the ideal values are the extended-real ones, and the sum starts from 0
  simp only [e0l, e0r, e1l, e1r, e2r, e6, e3l, e3r, e12, Ideal.hostDivf_def, Ideal.mulf_def, Ideal.addf_def,
    Ideal.hostUnary_sqrt_def, Ideal.ofBits_def, Ideal.ofBits_zero_f32, zero_add]
  unfold Cert.Spec.split Cert.Spec.nrm Cert.Spec.eff
  rfl

end Cert.ReferenceIdeal.RefVal

end
-- ==== Proof.Pay.lean ====
/-
  The two kernel bodies' arithmetic read at one index, at the extended reals. A change of float format
  is the identity, the matrix unit's product into a zero accumulator is the plain sum of products over
  the contracted axis, a lane reduction is the sum along the row, a broadcast of a row repeats it.
-/
import proofs.«154487_j26989574488653_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-! ## The low-rank product: the left operand's columns against the right operand's rows -/

/-- The left operand's row is the output's row. -/
theorem effdot_lhs_0 (i : S256x4096.Idx) (q : dot_S256x32_S32x4096_S256x4096_1_0_0_1_n_n.contr.Idx) :
    (dot_S256x32_S32x4096_S256x4096_1_0_0_1_n_n.lhsIdx i q 0).val = (i 0).val := by
  unfold DotDims.lhsIdx
  rw [dif_neg (show ¬(0 : Fin S256x32.rank) ∈ dot_S256x32_S32x4096_S256x4096_1_0_0_1_n_n.lhsBatch by decide), dif_pos (show (0 : Fin S256x32.rank) ∈ dot_S256x32_S32x4096_S256x4096_1_0_0_1_n_n.lhsNonContracting by decide)]
  rfl
/-- The left operand's column is the contraction coordinate. -/
theorem effdot_lhs_1 (i : S256x4096.Idx) (q : dot_S256x32_S32x4096_S256x4096_1_0_0_1_n_n.contr.Idx) :
    (dot_S256x32_S32x4096_S256x4096_1_0_0_1_n_n.lhsIdx i q 1).val = (q ⟨0, by decide⟩).val :=
  dot_S256x32_S32x4096_S256x4096_1_0_0_1_n_n.lhsIdx_val_of_single rfl i q
/-- The right operand's row is the contraction coordinate. -/
theorem effdot_rhs_0 (i : S256x4096.Idx) (q : dot_S256x32_S32x4096_S256x4096_1_0_0_1_n_n.contr.Idx) :
    (dot_S256x32_S32x4096_S256x4096_1_0_0_1_n_n.rhsIdx i q 0).val = (q ⟨0, by decide⟩).val :=
  dot_S256x32_S32x4096_S256x4096_1_0_0_1_n_n.rhsIdx_val_of_single rfl i q
/-- The right operand's column is the output's column. -/
theorem effdot_rhs_1 (i : S256x4096.Idx) (q : dot_S256x32_S32x4096_S256x4096_1_0_0_1_n_n.contr.Idx) :
    (dot_S256x32_S32x4096_S256x4096_1_0_0_1_n_n.rhsIdx i q 1).val = (i 1).val := by
  unfold DotDims.rhsIdx
  rw [dif_neg (show ¬(1 : Fin S32x4096.rank) ∈ dot_S256x32_S32x4096_S256x4096_1_0_0_1_n_n.rhsBatch by decide), dif_pos (show (1 : Fin S32x4096.rank) ∈ dot_S256x32_S32x4096_S256x4096_1_0_0_1_n_n.rhsNonContracting by decide)]
  rfl

/-- The low-rank product into a zero accumulator, at row p and column q: the sum over the rank. -/
theorem effdot_apply (b : FVec Ideal S256x32 .bf16) (a : FVec Ideal S32x4096 .bf16) (p : Fin 256) (q : Fin 4096) :
    matmul dot_S256x32_S32x4096_S256x4096_1_0_0_1_n_n none b a (constant (F := Ideal) S256x4096 .f32 0x00000000#32) (ix2 p q)
      = ∑ r : Fin 32, b (ix2 p r) * a (ix2 r q) := by
  simp only [matmul]
  rw [Ideal.matmul_constant_zero_apply, ← Equiv.sum_comp (contrEquiv1 dot_S256x32_S32x4096_S256x4096_1_0_0_1_n_n 32 rfl rfl).symm]
  refine Finset.sum_congr rfl fun k _ => ?_
  have hk := contrEquiv1_symm_val dot_S256x32_S32x4096_S256x4096_1_0_0_1_n_n 32 rfl rfl k
  have el : dot_S256x32_S32x4096_S256x4096_1_0_0_1_n_n.lhsIdx (ix2 p q) ((contrEquiv1 dot_S256x32_S32x4096_S256x4096_1_0_0_1_n_n 32 rfl rfl).symm k) = ix2 p k := funext fun c => Fin.ext (by
    match c with
    | ⟨0, _⟩ => exact effdot_lhs_0 _ _
    | ⟨1, _⟩ => exact (effdot_lhs_1 _ _).trans hk)
  have er : dot_S256x32_S32x4096_S256x4096_1_0_0_1_n_n.rhsIdx (ix2 p q) ((contrEquiv1 dot_S256x32_S32x4096_S256x4096_1_0_0_1_n_n 32 rfl rfl).symm k) = ix2 k q := funext fun c => Fin.ext (by
    match c with
    | ⟨0, _⟩ => exact (effdot_rhs_0 _ _).trans hk
    | ⟨1, _⟩ => exact effdot_rhs_1 _ _)
  rw [el, er]

/-- The effective-weight tile: the W tile plus the product of the lora_B tile with lora_A. -/
theorem pay_eff_apply (w : FVec Ideal S256x4096 .f32) (b : FVec Ideal S256x32 .f32) (a : FVec Ideal S32x4096 .f32)
    (p : Fin 256) (q : Fin 4096) :
    k0_pay1 (F := Ideal) w b a (ix2 p q) = w (ix2 p q) + ∑ r : Fin 32, b (ix2 p r) * a (ix2 r q) := by
  unfold k0_pay1
  exact congrArg (w (ix2 p q) + ·) (effdot_apply (truncf .bf16 b bitsLt_bf16_f32) (truncf .bf16 a bitsLt_bf16_f32) p q)

/-! ## The norm column: a row's sum of squares, kept as a one-column matrix -/

/-- A vector cast to a one-column matrix reads, at row p, the vector at p: both sit at row-major position p. -/
theorem col_cast_apply (v : FVec Ideal S256 .f32) (p : Fin 256) (z : Fin 1) :
    shapeCast S256x1 v shapeCasts_S256_S256x1 (ix2 p z) = v (ix1 p) :=
  shapeCast_apply v shapeCasts_S256_S256x1 _ _ (by
    have hz : z.val = 0 := by omega
    rw [Shape.rowMajor_val_two, Shape.rowMajor_val_one]
    show p.val = p.val * 1 + z.val
    rw [hz, Nat.mul_one, Nat.add_zero])

/-- The lane sum of a tile, at row p: the sum along that row. -/
theorem rowsum_apply (v : FVec Ideal S256x4096 .f32) (p : Fin 256) :
    multiReduction (F := Ideal) .add [1] S256 v 0x00000000#32 reduces_S256x4096_S256 (.inl rfl) rfl (ix1 p)
      = ∑ i : Fin 4096, v (ix2 p i) := by
  refine (Ideal.multiReduction_add_single v 0x00000000#32 reduces_S256x4096_S256 (.inl rfl) rfl (ix1 p)).trans ?_
  show ∑ k : Fin 4096, v (reduces_S256x4096_S256.lift (ix1 p) k) = _
  refine Finset.sum_congr rfl fun k _ => congrArg v (funext fun c => Fin.ext ?_)
  match c with
  | ⟨0, _⟩ => rfl
  | ⟨1, _⟩ => rfl

/-- The norm column's tile: the square root of the row's sum of squares of the effective-weight tile. -/
theorem pay_nrm_apply (w : FVec Ideal S256x4096 .f32) (b : FVec Ideal S256x32 .f32) (a : FVec Ideal S32x4096 .f32)
    (p : Fin 256) (z : Fin 1) :
    k0_pay2 (F := Ideal) w b a (ix2 p z)
      = Ideal.sqrt (∑ i : Fin 4096, k0_pay1 (F := Ideal) w b a (ix2 p i) * k0_pay1 (F := Ideal) w b a (ix2 p i)) := by
  unfold k0_pay2
  exact congrArg Ideal.sqrt ((col_cast_apply _ p z).trans
    (rowsum_apply (mulf (k0_pay1 (F := Ideal) w b a) (k0_pay1 (F := Ideal) w b a)) p))

/-! ## The main product: cleared accumulator, accumulation step, scaled epilogue -/

/-- The cleared accumulator is zero everywhere. -/
theorem pay_zero_apply (p q : Fin 1024) : k1_pay1 (F := Ideal) (ix2 p q) = 0 := by
  unfold k1_pay1
  rw [shapeCast_self]
  exact Ideal.ofBits_zero_f32

/-- The left operand's row is the output's row. -/
theorem stepdot_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the contraction coordinate. -/
theorem stepdot_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's row is the output's column: the right operand is read transposed. -/
theorem stepdot_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the contraction coordinate. -/
theorem stepdot_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The step's product into a zero accumulator, at row p and column q: row p of x against row q of w. -/
theorem stepdot_apply (x w : FVec Ideal S1024x1024 .bf16) (p q : Fin 1024) :
    matmul dot_S1024x1024_S1024x1024_S1024x1024_1_1_0_0_n_n none x w (constant (F := Ideal) S1024x1024 .f32 0x00000000#32) (ix2 p q)
      = ∑ l : Fin 1024, x (ix2 p l) * w (ix2 q l) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun c => Fin.ext (by
    match c with
    | ⟨0, _⟩ => exact stepdot_lhs_0 _ _
    | ⟨1, _⟩ => exact (stepdot_lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun c => Fin.ext (by
    match c with
    | ⟨0, _⟩ => exact stepdot_rhs_0 _ _
    | ⟨1, _⟩ => exact (stepdot_rhs_1 _ _).trans hk)
  rw [el, er]

/-- One accumulation step: the accumulator plus the product of the x tile with the transposed eff tile. -/
theorem pay_step_apply (x w acc : FVec Ideal S1024x1024 .f32) (p q : Fin 1024) :
    k1_pay2 (F := Ideal) x w acc (ix2 p q) = acc (ix2 p q) + ∑ l : Fin 1024, x (ix2 p l) * w (ix2 q l) := by
  unfold k1_pay2
  rw [shapeCast_self, shapeCast_self, shapeCast_self]
  exact congrArg (acc (ix2 p q) + ·) (stepdot_apply (truncf .bf16 x bitsLt_bf16_f32) (truncf .bf16 w bitsLt_bf16_f32) p q)

/-- The epilogue: the accumulator times the scale row broadcast down the rows. -/
theorem pay_scale_apply (acc : FVec Ideal S1024x1024 .f32) (s : FVec Ideal S1x1024 .f32) (p q : Fin 1024) :
    k1_pay3 (F := Ideal) acc s (ix2 p q) = acc (ix2 p q) * s (ix2 0 q) := by
  unfold k1_pay3
  rw [shapeCast_self, shapeCast_self]
  exact congrArg (acc (ix2 p q) * ·) (broadcastTo_1b_ab_apply s broadcasts_S1x1024_S1024x1024 p q)

end Cert.KernelIdeal.Val

end
-- ==== Proof.Val0.lean ====
/-
  What the first kernel region leaves, at the extended reals, as functions of the arrays it is entered
  from: row tile t of the effective weight is W's tile plus the product of lora_B's tile with lora_A, so
  the sixteen tiles written back make the whole matrix  eff = W + B·A;  and the norm column's tile holds
  sqrt(Σ_i eff[r,i]²) for its 256 rows, so the column is the row norms of eff.
-/
import proofs.«154487_j26989574488653_1_alg».proof.Proof.KI.Reg0
import proofs.«154487_j26989574488653_1_alg».proof.Proof.Spec
import proofs.«154487_j26989574488653_1_alg».proof.Proof.Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/- The buffer contents the region is entered from, per core: a parameter. -/
variable (V : (c : Dev nD) → (b : Ref sig .tc) → Buf (Elt Ideal) ((c : Thread nD τ).loc b))

namespace R0

/-! ## The arrays and the tiles, at their literal shapes -/

/-- The weight matrix as the region finds it. -/
abbrev Warr (c : Dev nD) : S4096x4096.Idx → EReal := V c main_arg1
/-- lora_A as the region finds it. -/
abbrev Aarr (c : Dev nD) : S32x4096.Idx → EReal := V c main_arg2
/-- lora_B as the region finds it. -/
abbrev Barr (c : Dev nD) : S4096x32.Idx → EReal := V c main_arg3

/-- The tile of W staged at point t: rows 256·t … 256·t + 255. -/
abbrev wtile (c : Dev nD) (t : Fin cfg0.N) : FVec Ideal S256x4096 .f32 := iblk0 V c 0 t
/-- The tile of lora_B staged at point t: the same rows. -/
abbrev btile (c : Dev nD) (t : Fin cfg0.N) : FVec Ideal S256x32 .f32 := iblk0 V c 1 t
/-- The tile of lora_A staged at point t: all of it. -/
abbrev atile (c : Dev nD) (t : Fin cfg0.N) : FVec Ideal S32x4096 .f32 := iblk0 V c 2 t

/-- The block indices over the grid: the row tiles of W, lora_B and the two results move with the point,
    on the column axis every window sits at block 0, and lora_A stays at block (0, 0). -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- An entry of W's tile at point t is the entry of W 256·t rows further down. -/
theorem wtile_apply (c : Dev nD) (t : Fin cfg0.N) (x : S256x4096.Idx) (k : S4096x4096.Idx)
    (hk0 : (k 0).val = 256 * t.val + (x 0).val) (hk1 : (k 1).val = (x 1).val) :
    wtile V c t x = Warr V c k := by
  obtain ⟨e0, e1, -⟩ := tile_index t
  show iblk0 V c 0 t x = _
  unfold iblk0
  rw [View.read_apply]
  show V c main_arg1 _ = V c main_arg1 _
  refine congrArg (V c main_arg1) ?_
  funext a
  apply Fin.ext
  match a with
  | ⟨0, _⟩ => show win0_0.index t (0 : Fin 2) * 256 + 1 * (x 0).val = (k 0).val; rw [e0, hk0]; omega
  | ⟨1, _⟩ => show win0_0.index t (1 : Fin 2) * 4096 + 1 * (x 1).val = (k 1).val; rw [e1, hk1]; omega

/-- An entry of lora_B's tile at point t is the entry of lora_B 256·t rows further down. -/
theorem btile_apply (c : Dev nD) (t : Fin cfg0.N) (x : S256x32.Idx) (k : S4096x32.Idx)
    (hk0 : (k 0).val = 256 * t.val + (x 0).val) (hk1 : (k 1).val = (x 1).val) :
    btile V c t x = Barr V c k := by
  obtain ⟨-, -, e0, e1, -⟩ := tile_index t
  show iblk0 V c 1 t x = _
  unfold iblk0
  rw [View.read_apply]
  show V c main_arg3 _ = V c main_arg3 _
  refine congrArg (V c main_arg3) ?_
  funext a
  apply Fin.ext
  match a with
  | ⟨0, _⟩ => show win0_1.index t (0 : Fin 2) * 256 + 1 * (x 0).val = (k 0).val; rw [e0, hk0]; omega
  | ⟨1, _⟩ => show win0_1.index t (1 : Fin 2) * 32 + 1 * (x 1).val = (k 1).val; rw [e1, hk1]; omega

/-- lora_A's tile is lora_A at every point. -/
theorem atile_apply (c : Dev nD) (t : Fin cfg0.N) (x : S32x4096.Idx) (k : S32x4096.Idx)
    (hk0 : (k 0).val = (x 0).val) (hk1 : (k 1).val = (x 1).val) :
    atile V c t x = Aarr V c k := by
  obtain ⟨-, -, -, -, e0, e1, -⟩ := tile_index t
  show iblk0 V c 2 t x = _
  unfold iblk0
  rw [View.read_apply]
  show V c main_arg2 _ = V c main_arg2 _
  refine congrArg (V c main_arg2) ?_
  funext a
  apply Fin.ext
  match a with
  | ⟨0, _⟩ => show win0_2.index t (0 : Fin 2) * 32 + 1 * (x 0).val = (k 0).val; rw [e0, hk0]; omega
  | ⟨1, _⟩ => show win0_2.index t (1 : Fin 2) * 4096 + 1 * (x 1).val = (k 1).val; rw [e1, hk1]; omega

/-! ## The effective weight -/

/-- The whole effective-weight matrix of the entry contents. -/
abbrev effArr (c : Dev nD) : S4096x4096.Idx → EReal := fun j =>
  Cert.Spec.eff (V c main_arg1) (V c main_arg2) (V c main_arg3) (j 0) (j 1)

/-- The tile the body leaves at point t, at one entry, is the effective weight 256·t rows further down. -/
theorem eff_tile_at (c : Dev nD) (t : Fin cfg0.N) (j : S256x4096.Idx) (k : S4096x4096.Idx)
    (hk0 : (k 0).val = 256 * t.val + (j 0).val) (hk1 : (k 1).val = (j 1).val) :
    k0_pay1 (F := Ideal) (wtile V c t) (btile V c t) (atile V c t) j = effArr V c k := by
  obtain ⟨p, q, rfl⟩ : ∃ (p : Fin 256) (q : Fin 4096), j = ix2 p q := ⟨j 0, j 1, eq_ix2 j⟩
  obtain ⟨o, i, rfl⟩ : ∃ (o : Fin 4096) (i : Fin 4096), k = ix2 o i := ⟨k 0, k 1, eq_ix2 k⟩
  have ho : o.val = 256 * t.val + p.val := hk0
  obtain rfl : i = q := Fin.ext hk1
  rw [pay_eff_apply]
  show _ = Cert.Spec.eff (V c main_arg1) (V c main_arg2) (V c main_arg3) o i
  unfold Cert.Spec.eff
  rw [wtile_apply V c t (ix2 p i) (ix2 o i) ho rfl]
  refine congrArg (Warr V c (ix2 o i) + ·) (Finset.sum_congr rfl fun r _ => ?_)
  rw [btile_apply V c t (ix2 p r) (ix2 o r) ho rfl, atile_apply V c t (ix2 r i) (ix2 r i) rfl rfl]

/-- What point t writes back into the first result is tile t of the effective weight. -/
theorem flushed_eff (c : Dev nD) (t : Fin cfg0.N) :
    (dat0 V c).flushed 3 t = ((cfg0.win 3).blk t).view.read (Elt Ideal) (effArr V c) := by
  show (cfg0.win 3).cut (grid0.coords t) ((dat0 V c).after 3 t) = _
  rw [after0_3]
  obtain ⟨-, -, -, -, -, -, e0, e1, -⟩ := tile_index t
  funext j
  show k0_pay1 (F := Ideal) (wtile V c t) (btile V c t) (atile V c t) ((cfg0.win 3).xinj (grid0.coords t) j)
    = effArr V c (((cfg0.win 3).blk t).view.emb j)
  refine eff_tile_at V c t _ _ ?_ ?_
  · show win0_3.index t (0 : Fin 2) * 256 + 1 * (j 0).val = 256 * t.val + (j 0).val
    rw [e0]; omega
  · show win0_3.index t (1 : Fin 2) * 4096 + 1 * (j 1).val = (j 1).val
    rw [e1]; omega

/-- An index of the first result lies in point t's tile iff each coordinate is in the tile's range. -/
theorem mem_blk_eff (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v0_0).slice (win0_3.rect t)).set ↔ _
  rw [View.set_slice_whole, Rect.mem_set_unit]
  exact Iff.rfl

/-- Row r of the first result is written back by point r / 256. -/
theorem cover_eff (i : S4096x4096.Idx) :
    ∃ t : Fin cfg0.N, (cfg0.win 3).flush t = true ∧ i ∈ ((cfg0.win 3).blk t).view.set := by
  have hi0 : (i 0).val < 4096 := idx2_lt0 i
  have hi1 : (i 1).val < 4096 := idx2_lt1 i
  have hN : grid0.N = 16 := N_0
  have ht : (i 0).val / 256 < grid0.N := by omega
  obtain ⟨-, -, -, -, -, -, e0, e1, -⟩ := tile_index ⟨(i 0).val / 256, ht⟩
  refine ⟨⟨(i 0).val / 256, ht⟩, flush0_3 _, ?_⟩
  rw [mem_blk_eff]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_3.index ⟨(i 0).val / 256, ht⟩ (1 : Fin 2) * 4096 ≤ (i 1).val
      ∧ (i 1).val < win0_3.index ⟨(i 0).val / 256, ht⟩ (1 : Fin 2) * 4096 + 4096
    rw [e1]; omega

end R0

open R0 in
/-- After the first region its first result array is the effective weight of the entry contents. -/
theorem arr0_eff (c : Dev nD) :
    (dat0 V c).arrAt 3 cfg0.N = fun j : S4096x4096.Idx =>
      Cert.Spec.eff (V c main_arg1) (V c main_arg2) (V c main_arg3) (j 0) (j 1) :=
  (dat0 V c).arrAt_eq_of_cover 3 (effArr V c) (fun t _ => flushed_eff V c t) cover_eff

namespace R0

/-! ## The row norms -/

/-- The column of row norms of the effective weight of the entry contents. -/
abbrev nrmArr (c : Dev nD) : S4096x1.Idx → EReal := fun j =>
  Cert.Spec.nrm (V c main_arg1) (V c main_arg2) (V c main_arg3) (j 0)

/-- The norm tile the body leaves at point t, at one entry, is the norm of the row 256·t further down:
    the square root of that row's sum of squares of the effective weight. -/
theorem nrm_tile_at (c : Dev nD) (t : Fin cfg0.N) (j : S256x1.Idx) (k : S4096x1.Idx)
    (hk0 : (k 0).val = 256 * t.val + (j 0).val) :
    k0_pay2 (F := Ideal) (wtile V c t) (btile V c t) (atile V c t) j = nrmArr V c k := by
  obtain ⟨p, z, rfl⟩ : ∃ (p : Fin 256) (z : Fin 1), j = ix2 p z := ⟨j 0, j 1, eq_ix2 j⟩
  obtain ⟨o, z', rfl⟩ : ∃ (o : Fin 4096) (z' : Fin 1), k = ix2 o z' := ⟨k 0, k 1, eq_ix2 k⟩
  have ho : o.val = 256 * t.val + p.val := hk0
  rw [pay_nrm_apply]
  show _ = Cert.Spec.nrm (V c main_arg1) (V c main_arg2) (V c main_arg3) o
  unfold Cert.Spec.nrm
  refine congrArg Ideal.sqrt (Finset.sum_congr rfl fun i _ => ?_)
  rw [eff_tile_at V c t (ix2 p i) (ix2 o i) ho rfl]

/-- What point t writes back into the second result is tile t of the column of row norms. -/
theorem flushed_nrm (c : Dev nD) (t : Fin cfg0.N) :
    (dat0 V c).flushed 4 t = ((cfg0.win 4).blk t).view.read (Elt Ideal) (nrmArr V c) := by
  show (cfg0.win 4).cut (grid0.coords t) ((dat0 V c).after 4 t) = _
  rw [after0_4]
  obtain ⟨-, -, -, -, -, -, -, -, e0, e1⟩ := tile_index t
  funext j
  show k0_pay2 (F := Ideal) (wtile V c t) (btile V c t) (atile V c t) ((cfg0.win 4).xinj (grid0.coords t) j)
    = nrmArr V c (((cfg0.win 4).blk t).view.emb j)
  refine nrm_tile_at V c t _ _ ?_
  show win0_4.index t (0 : Fin 2) * 256 + 1 * (j 0).val = 256 * t.val + (j 0).val
  rw [e0]; omega

/-- An index of the second result lies in point t's tile iff each coordinate is in the tile's range. -/
theorem mem_blk_nrm (t : Fin cfg0.N) (i : S4096x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v0_1).slice (win0_4.rect t)).set ↔ _
  rw [View.set_slice_whole, Rect.mem_set_unit]
  exact Iff.rfl

/-- Row r of the second result is written back by point r / 256. -/
theorem cover_nrm (i : S4096x1.Idx) :
    ∃ t : Fin cfg0.N, (cfg0.win 4).flush t = true ∧ i ∈ ((cfg0.win 4).blk t).view.set := by
  have hi0 : (i 0).val < 4096 := idx2_lt0 i
  have hi1 : (i 1).val < 1 := idx2_lt1 i
  have hN : grid0.N = 16 := N_0
  have ht : (i 0).val / 256 < grid0.N := by omega
  obtain ⟨-, -, -, -, -, -, -, -, e0, e1⟩ := tile_index ⟨(i 0).val / 256, ht⟩
  refine ⟨⟨(i 0).val / 256, ht⟩, flush0_4 _, ?_⟩
  rw [mem_blk_nrm]
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, ht⟩ (1 : Fin 2) * 1 ≤ (i 1).val
      ∧ (i 1).val < win0_4.index ⟨(i 0).val / 256, ht⟩ (1 : Fin 2) * 1 + 1
    rw [e1]; omega

end R0

open R0 in
/-- After the first region its second result array is the column of row norms. -/
theorem arr0_nrm (c : Dev nD) :
    (dat0 V c).arrAt 4 cfg0.N = fun j : S4096x1.Idx =>
      Cert.Spec.nrm (V c main_arg1) (V c main_arg2) (V c main_arg3) (j 0) :=
  (dat0 V c).arrAt_eq_of_cover 4 (nrmArr V c) (fun t _ => flushed_nrm V c t) cover_nrm

end Cert.KernelIdeal.Val

end
-- ==== Proof.Blocks.lean ====
/-
  A sum over 4096 consecutive indices is the sum of its four blocks of 1024, in any commutative monoid.
-/
import Mathlib.Algebra.BigOperators.Fin
import Mathlib.Algebra.BigOperators.Group.Finset.Basic
import Mathlib.Data.Fintype.BigOperators
import Mathlib.Logic.Equiv.Fin.Basic

namespace Cert.Blocks

/-- Σ_{l < 4096} f l = Σ_{k < 4} Σ_{l < 1024} f (1024 k + l). -/
theorem sum_four_blocks {M : Type*} [AddCommMonoid M] (f : Fin 4096 → M) :
    ∑ l : Fin 4096, f l = ∑ k : Fin 4, ∑ l : Fin 1024, f ⟨1024 * k.val + l.val, by omega⟩ := by
  -- the pairs (k, l) with k < 4 and l < 1024 number the indices below 4096 by  l + 1024 k
  calc ∑ l : Fin 4096, f l
      = ∑ x : Fin 4 × Fin 1024, f ((finProdFinEquiv : Fin 4 × Fin 1024 ≃ Fin 4096) x) :=
        (Equiv.sum_comp (finProdFinEquiv : Fin 4 × Fin 1024 ≃ Fin 4096) f).symm
    _ = ∑ k : Fin 4, ∑ l : Fin 1024, f ((finProdFinEquiv : Fin 4 × Fin 1024 ≃ Fin 4096) (k, l)) :=
        Fintype.sum_prod_type _
    _ = ∑ k : Fin 4, ∑ l : Fin 1024, f ⟨1024 * k.val + l.val, by omega⟩ :=
        Finset.sum_congr rfl fun k _ => Finset.sum_congr rfl fun l _ =>
          congrArg f (Fin.ext (Nat.add_comm l.val (1024 * k.val)))

end Cert.Blocks
-- ==== Proof.Val1.lean ====
/-
  What the second kernel region leaves, at the extended reals, as a function of the arrays it is entered
  from (X = the reshaped x, E = the effective weight, S = the scale row): the accumulator after the step
  k of an (i, j) pair is the partial product over the first k+1 contraction tiles, so at k = 3 it is the
  whole product Σ_l X[r,l]·E[q,l] over the 4096 columns, and the tile written back is that times S[0,q].
  The sixteen (i, j) tiles written back make the whole 4096×4096 result.
-/
import proofs.«154487_j26989574488653_1_alg».proof.Proof.KI.Reg1
import proofs.«154487_j26989574488653_1_alg».proof.Proof.Spec
import proofs.«154487_j26989574488653_1_alg».proof.Proof.Pay
import proofs.«154487_j26989574488653_1_alg».proof.Proof.Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/- The buffer contents the region is entered from, per core: a parameter. -/
variable (V : (c : Dev nD) → (b : Ref sig .tc) → Buf (Elt Ideal) ((c : Thread nD τ).loc b))

/-- The three arrays the region reads, at their literal types: the reshaped x, the effective weight, the scale row. -/
abbrev Xarr (c : Dev nD) : S4096x4096.Idx → EReal := V c main_v4
abbrev Earr (c : Dev nD) : S4096x4096.Idx → EReal := V c main_v0_0
abbrev Sarr (c : Dev nD) : S1x4096.Idx → EReal := V c main_v3

/-- The printed index maps over the 64 points t = 16 i + 4 j + k: the x tile is (i, k), the effective-weight
    tile (j, k), the scale tile (0, j), the result tile (i, j). -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- Entry p of tile a (taken mod 4) along an axis of 4096 cut into four tiles of 1024. -/
def at4 (a : ℕ) (p : Fin 1024) : Fin 4096 := ⟨1024 * (a % 4) + p.val, by have := p.isLt; omega⟩

/-- The tiles the body reads at a point, at their literal types. -/
abbrev xblk (c : Dev nD) (t : Fin cfg1.N) : Vec Ideal S1024x1024 .f32 := iblk1 V c 0 t
abbrev eblk (c : Dev nD) (t : Fin cfg1.N) : Vec Ideal S1024x1024 .f32 := iblk1 V c 1 t
abbrev sblk (c : Dev nD) (t : Fin cfg1.N) : Vec Ideal S1x1024 .f32 := iblk1 V c 2 t

/-- The x tile at the point t = 16 i + 4 j + k reads X at rows 1024 i + p, columns 1024 k + l. -/
theorem xblk_apply (c : Dev nD) (t : Fin cfg1.N) (p l : Fin 1024) :
    xblk V c t (ix2 p l) = Xarr V c (ix2 (at4 (t.val / 16) p) (at4 t.val l)) := by
  obtain ⟨e0, e1, -⟩ := idx_facts1 t
  have hN : cfg1.N = 64 := N_1
  have ht := t.isLt
  unfold xblk iblk1
  rw [View.read_apply]
  show V c main_v4 _ = V c main_v4 _
  congr 1
  funext a
  apply Fin.ext
  match a with
  | ⟨0, _⟩ => show win1_0.index t (0 : Fin 2) * 1024 + 1 * p.val = 1024 * (t.val / 16 % 4) + p.val; rw [e0]; omega
  | ⟨1, _⟩ => show win1_0.index t (1 : Fin 2) * 1024 + 1 * l.val = 1024 * (t.val % 4) + l.val; rw [e1]; omega

/-- The effective-weight tile at that point reads E at rows 1024 j + q, columns 1024 k + l. -/
theorem eblk_apply (c : Dev nD) (t : Fin cfg1.N) (q l : Fin 1024) :
    eblk V c t (ix2 q l) = Earr V c (ix2 (at4 (t.val / 4) q) (at4 t.val l)) := by
  obtain ⟨-, -, e0, e1, -⟩ := idx_facts1 t
  unfold eblk iblk1
  rw [View.read_apply]
  show V c main_v0_0 _ = V c main_v0_0 _
  congr 1
  funext a
  apply Fin.ext
  match a with
  | ⟨0, _⟩ => show win1_1.index t (0 : Fin 2) * 1024 + 1 * q.val = 1024 * (t.val / 4 % 4) + q.val; rw [e0]; omega
  | ⟨1, _⟩ => show win1_1.index t (1 : Fin 2) * 1024 + 1 * l.val = 1024 * (t.val % 4) + l.val; rw [e1]; omega

/-- The scale tile at that point reads S at row 0, columns 1024 j + q. -/
theorem sblk_apply (c : Dev nD) (t : Fin cfg1.N) (q : Fin 1024) :
    sblk V c t (ix2 0 q) = Sarr V c (ix2 0 (at4 (t.val / 4) q)) := by
  obtain ⟨-, -, -, -, e0, e1, -⟩ := idx_facts1 t
  unfold sblk iblk1
  rw [View.read_apply]
  show V c main_v3 _ = V c main_v3 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = 1024 * (t.val / 4 % 4) + q.val; rw [e1]; omega

/-- The accumulator after a point, at its literal type. -/
abbrev acc1 (c : Dev nD) (t : Fin cfg1.N) : Vec Ideal S1024x1024 .f32 := accAt1 V c t.val t.isLt

/-- The partial product over the contraction tiles 0 … k of row r of X with row s of E. -/
def partialDot (c : Dev nD) (r s : Fin 4096) (k : ℕ) : EReal :=
  ∑ k' ∈ Finset.range (k + 1), ∑ l : Fin 1024, Xarr V c (ix2 r (at4 k' l)) * Earr V c (ix2 s (at4 k' l))

/-- The accumulator after the point t = 16 i + 4 j + k holds, at (p, q), the partial product over the
    contraction tiles 0 … k of row 1024 i + p of X with row 1024 j + q of E: by induction on k, the
    point before a point with k > 0 having the same (i, j) and k − 1. -/
theorem acc1_apply (c : Dev nD) : ∀ (k : ℕ) (t : Fin cfg1.N), t.val % 4 = k → ∀ p q : Fin 1024,
    acc1 V c t (ix2 p q) = partialDot V c (at4 (t.val / 16) p) (at4 (t.val / 4) q) k
  | 0, t, hk, p, q => by
    unfold acc1 partialDot
    rw [accAt1_reset V c t hk]
    refine (pay_step_apply (xblk V c t) (eblk V c t) (k1_pay1 (F := Ideal)) p q).trans ?_
    rw [pay_zero_apply, zero_add, Finset.sum_range_one]
    refine Finset.sum_congr rfl fun l _ => ?_
    rw [xblk_apply, eblk_apply]
    have e : at4 t.val l = at4 0 l := Fin.ext (by show 1024 * (t.val % 4) + l.val = 1024 * (0 % 4) + l.val; omega)
    rw [e]
  | k + 1, t, hk, p, q => by
    have hN : cfg1.N = 64 := N_1
    have ht := t.isLt
    have hne : ¬ t.val % 4 = 0 := by omega
    have hlt : t.val - 1 < cfg1.N := by omega
    have ih := acc1_apply c k ⟨t.val - 1, hlt⟩ (by show (t.val - 1) % 4 = k; omega) p q
    unfold acc1 partialDot at ih ⊢
    rw [accAt1_step V c t hne]
    refine (pay_step_apply (xblk V c t) (eblk V c t) (accAt1 V c (t.val - 1) hlt) p q).trans ?_
    rw [Finset.sum_range_succ _ (k + 1)]
    congr 1
    · refine ih.trans ?_
      have e1 : at4 ((t.val - 1) / 16) p = at4 (t.val / 16) p := Fin.ext (by show 1024 * ((t.val - 1) / 16 % 4) + p.val = 1024 * (t.val / 16 % 4) + p.val; omega)
      have e2 : at4 ((t.val - 1) / 4) q = at4 (t.val / 4) q := Fin.ext (by show 1024 * ((t.val - 1) / 4 % 4) + q.val = 1024 * (t.val / 4 % 4) + q.val; omega)
      show (∑ k' ∈ Finset.range (k + 1), ∑ l : Fin 1024, Xarr V c (ix2 (at4 ((t.val - 1) / 16) p) (at4 k' l)) * Earr V c (ix2 (at4 ((t.val - 1) / 4) q) (at4 k' l))) = _
      rw [e1, e2]
    · refine Finset.sum_congr rfl fun l _ => ?_
      rw [xblk_apply, eblk_apply]
      have e : at4 t.val l = at4 (k + 1) l := Fin.ext (by show 1024 * (t.val % 4) + l.val = 1024 * ((k + 1) % 4) + l.val; omega)
      rw [e]

/-- At k = 3 the partial product is the whole product over the 4096 columns: the four tiles of 1024 make the axis. -/
theorem partialDot_three (c : Dev nD) (r s : Fin 4096) :
    partialDot V c r s 3 = ∑ l : Fin 4096, Xarr V c (ix2 r l) * Earr V c (ix2 s l) := by
  unfold partialDot
  show (∑ k' ∈ Finset.range 4, ∑ l : Fin 1024, Xarr V c (ix2 r (at4 k' l)) * Earr V c (ix2 s (at4 k' l))) = _
  rw [Cert.Blocks.sum_four_blocks (fun l => Xarr V c (ix2 r l) * Earr V c (ix2 s l)), Finset.sum_range]
  refine Finset.sum_congr rfl fun k' _ => Finset.sum_congr rfl fun l _ => ?_
  have e : at4 k'.val l = ⟨1024 * k'.val + l.val, by omega⟩ :=
    Fin.ext (by show 1024 * (k'.val % 4) + l.val = 1024 * k'.val + l.val; have := k'.isLt; omega)
  rw [e]

/-- What the region's result array ends holding: the product of X with the transposed E, each column scaled. -/
def out1 (c : Dev nD) : S4096x4096.Idx → EReal := fun j =>
  (∑ l : Fin 4096, Xarr V c (ix2 (j 0) l) * Earr V c (ix2 (j 1) l)) * Sarr V c (ix2 0 (j 1))

/-- What a point with k = 3 writes back is its (i, j) tile of that array: the accumulator there is the whole
    product of row 1024 i + p of X with row 1024 j + q of E, and the epilogue scales it by S[0, 1024 j + q]. -/
theorem flushed1_eq (c : Dev nD) (t : Fin cfg1.N) (hf : (cfg1.win 3).flush t = true) :
    (dat1 V c).flushed 3 t = ((cfg1.win 3).blk t).view.read (Elt Ideal) (out1 V c) := by
  have hk : t.val % 4 = 3 := (flush1_3 t).mp hf
  have hN : cfg1.N = 64 := N_1
  have ht := t.isLt
  obtain ⟨-, -, -, -, -, -, e0, e1⟩ := idx_facts1 t
  show (cfg1.win 3).cut (grid1.coords t) ((dat1 V c).after 3 t) = _
  rw [after1_3]
  funext y
  obtain ⟨p, q, rfl⟩ : ∃ (p q : Fin 1024), y = ix2 p q := ⟨y 0, y 1, eq_ix2 y⟩
  rw [View.read_apply]
  have hemb : ((cfg1.win 3).blk t).view.emb (ix2 p q) = ix2 (at4 (t.val / 16) p) (at4 (t.val / 4) q) := by
    funext a
    apply Fin.ext
    match a with
    | ⟨0, _⟩ => show win1_3.index t (0 : Fin 2) * 1024 + 1 * p.val = 1024 * (t.val / 16 % 4) + p.val; rw [e0]; omega
    | ⟨1, _⟩ => show win1_3.index t (1 : Fin 2) * 1024 + 1 * q.val = 1024 * (t.val / 4 % 4) + q.val; rw [e1]; omega
  show k1_pay3 (F := Ideal) (acc1 V c t) (sblk V c t) (ix2 p q) = out1 V c (((cfg1.win 3).blk t).view.emb (ix2 p q))
  rw [hemb]
  refine (pay_scale_apply (acc1 V c t) (sblk V c t) p q).trans ?_
  rw [acc1_apply V c 3 t hk p q, partialDot_three, sblk_apply]
  rfl

/-- An index of the result array is in the tile of point t iff each coordinate is in the tile's range on its axis. -/
theorem mem_blk1 (t : Fin cfg1.N) (i : S4096x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v5).slice (win1_3.rect t)).set ↔ _
  rw [View.set_slice_whole, Rect.mem_set_unit]
  exact Iff.rfl

/-- Entry (r, s) of the result lies in the tile written back at the point 16 (r / 1024) + 4 (s / 1024) + 3. -/
theorem cover1 (i : S4096x4096.Idx) :
    ∃ t : Fin cfg1.N, (cfg1.win 3).flush t = true ∧ i ∈ ((cfg1.win 3).blk t).view.set := by
  have hN : cfg1.N = 64 := N_1
  have h0 : (i 0).val < 4096 := idx2_lt0 i
  have h1 : (i 1).val < 4096 := idx2_lt1 i
  obtain ⟨t, ht⟩ : ∃ t : Fin cfg1.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e0, e1⟩ := idx_facts1 t
  refine ⟨t, (flush1_3 t).mpr (by omega), ?_⟩
  rw [mem_blk1]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 1024 ≤ (i 1).val ∧ (i 1).val < win1_3.index t (1 : Fin 2) * 1024 + 1024
    rw [e1]; omega

/-- After the second region its result array is the product of X with the transposed E, each column scaled. -/
theorem arr1_out (c : Dev nD) :
    (dat1 V c).arrAt 3 cfg1.N = fun j : S4096x4096.Idx =>
      (∑ l : Fin 4096, Xarr V c (ix2 (j 0) l) * Earr V c (ix2 (j 1) l)) * Sarr V c (ix2 0 (j 1)) :=
  (dat1 V c).arrAt_eq_of_cover 3 (out1 V c) (fun t hf => flushed1_eq V c t hf) cover1

end Cert.KernelIdeal.Val

end
-- ==== Proof.Bridge.lean ====
/-
  The program's result as a function of its five arguments, at the extended reals. Region 1 is entered
  from X = x reshaped to 4096×4096, E = what region 0 left (the effective weight) and the scale row
  S[0,o] = magnitude[o] / nrm[o] (the host's quotient of the reshaped magnitude by the norm column region
  0 left, reshaped to a row); its result, reshaped back to [2, 2048, 4096], is the fused arrangement of
  the specification.
-/
import proofs.«154487_j26989574488653_1_alg».proof.Proof.KI.Segs
import proofs.«154487_j26989574488653_1_alg».proof.Proof.Val0
import proofs.«154487_j26989574488653_1_alg».proof.Proof.Val1
import proofs.«154487_j26989574488653_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The host stretches, read buffer by buffer -/

/-- The result buffer of region 1, after the run, is what region 1's write-backs fold to. -/
theorem V3_v5 (c : Dev nD) :
    Gen.V3 m (outs m) c main_v5 = (dat1 (Ve1 m) c).arrAt 3 cfg1.N := by
  show Function.update _ _ _ _ = _
  rw [Function.update_self]
  exact outs_v5 m c

/-- The program's result is region 1's result array, reshaped to [2, 2048, 4096]. -/
theorem V4_v6 (c : Dev nD) :
    (Gen.V4 m (outs m) c main_v6 : S2x2048x4096.Idx → EReal)
      = shapeCast S2x2048x4096 ((dat1 (Ve1 m) c).arrAt 3 cfg1.N) shapeCasts_S4096x4096_S2x2048x4096 := by
  show StableHlo.after hostOps2 (Gen.V3 m (outs m) c) (Proc.devRef .tc main_v6) = _
  after_results
  rw [show Gen.V3 m (outs m) c (Proc.devRef .tc main_v5) = (dat1 (Ve1 m) c).arrAt 3 cfg1.N from V3_v5 m c]
  rfl

/-- What region 0 left in its first result array, as the run records it. -/
theorem outs1_v0_0 (c : Dev nD) : outs1 m 1 main_v0_0 c = (dat0 (Ve0 m) c).arrAt 3 cfg0.N :=
  (show outs1 m 1 main_v0_0 c = outs m 1 main_v0_0 c from (if_neg (by decide)).symm).trans (outs_v0_0 m c)

/-- What region 0 left in its second result array, as the run records it. -/
theorem outs1_v0_1 (c : Dev nD) : outs1 m 1 main_v0_1 c = (dat0 (Ve0 m) c).arrAt 4 cfg0.N :=
  (show outs1 m 1 main_v0_1 c = outs m 1 main_v0_1 c from (if_neg (by decide)).symm).trans (outs_v0_1 m c)

/-- After region 0 the first result array holds its fold. -/
theorem V1_v0_0 (c : Dev nD) :
    Gen.V1 m (outs1 m) c main_v0_0 = (dat0 (Ve0 m) c).arrAt 3 cfg0.N := by
  show Function.update (Function.update _ _ _) _ _ _ = _
  rw [Function.update_of_ne (StableHlo.devRef_ne_of_ne (by decide)), Function.update_self]
  exact outs1_v0_0 m c

/-- After region 0 the second result array holds its fold. -/
theorem V1_v0_1 (c : Dev nD) :
    Gen.V1 m (outs1 m) c main_v0_1 = (dat0 (Ve0 m) c).arrAt 4 cfg0.N := by
  show Function.update _ _ _ _ = _
  rw [Function.update_self]
  exact outs1_v0_1 m c

/-- Region 1's first operand: x reshaped to 4096 × 4096. -/
theorem Ve1_v4 (c : Dev nD) :
    (Ve1 m c main_v4 : S4096x4096.Idx → EReal)
      = shapeCast S4096x4096 (m ((c.tc : Thread nD τ).loc main_arg0)) shapeCasts_S2x2048x4096_S4096x4096 := by
  show StableHlo.after hostOps1 (Gen.V1 m (outs1 m) c) (Proc.devRef .tc main_v4) = _
  after_results
  rw [show Gen.V1 m (outs1 m) c (Proc.devRef .tc main_arg0) = Gen.V0 m c main_arg0 from Gen.V1_of m (outs1 m) c main_arg0 (by decide)]
  rfl

/-- Region 1's second operand: what region 0 left in its first result array. -/
theorem Ve1_v0_0 (c : Dev nD) :
    (Ve1 m c main_v0_0 : S4096x4096.Idx → EReal) = (dat0 (Ve0 m) c).arrAt 3 cfg0.N := by
  show StableHlo.after hostOps1 (Gen.V1 m (outs1 m) c) (Proc.devRef .tc main_v0_0) = _
  after_results
  exact V1_v0_0 m c

/-- Region 1's third operand: the reshaped magnitude divided by the norm column, reshaped to a row. -/
theorem Ve1_v3 (c : Dev nD) :
    (Ve1 m c main_v3 : S1x4096.Idx → EReal)
      = shapeCast S1x4096
          (Host.divf (F := Ideal) (s := S4096x1) (φ := .f32)
            (shapeCast S4096x1 (m ((c.tc : Thread nD τ).loc main_arg4) : S4096.Idx → EReal) shapeCasts_S4096_S4096x1)
            ((dat0 (Ve0 m) c).arrAt 4 cfg0.N))
          shapeCasts_S4096x1_S1x4096 := by
  show StableHlo.after hostOps1 (Gen.V1 m (outs1 m) c) (Proc.devRef .tc main_v3) = _
  after_results
  rw [show Gen.V1 m (outs1 m) c (Proc.devRef .tc main_arg4) = Gen.V0 m c main_arg4 from Gen.V1_of m (outs1 m) c main_arg4 (by decide),
    show Gen.V1 m (outs1 m) c (Proc.devRef .tc main_v0_1) = (dat0 (Ve0 m) c).arrAt 4 cfg0.N from V1_v0_1 m c]
  rfl

/-! ## The reshapes read at an index: row-major positions agree -/

/-- A [2, 2048, 4096] array reshaped to 4096 × 4096, read at row 2048·b + s. -/
theorem reshape_rows_apply (x : S2x2048x4096.Idx → EReal) (b : Fin 2) (s : Fin 2048) (r l : Fin 4096)
    (hr : r.val = 2048 * b.val + s.val) :
    shapeCast S4096x4096 x shapeCasts_S2x2048x4096_S4096x4096 (ix2 r l) = x (ix3 b s l) := by
  refine shapeCast_apply x _ (ix2 r l) (ix3 b s l) ?_
  rw [Shape.rowMajor_val_two, Shape.rowMajor_val_three]
  show (b.val * 2048 + s.val) * 4096 + l.val = r.val * 4096 + l.val
  omega

/-- A 4096 × 4096 array reshaped to [2, 2048, 4096], read at (b, s, o): row 2048·b + s. -/
theorem reshape_back_apply (y : S4096x4096.Idx → EReal) (b : Fin 2) (s : Fin 2048) (r o : Fin 4096)
    (hr : r.val = 2048 * b.val + s.val) :
    shapeCast S2x2048x4096 y shapeCasts_S4096x4096_S2x2048x4096 (ix3 b s o) = y (ix2 r o) := by
  refine shapeCast_apply y _ (ix3 b s o) (ix2 r o) ?_
  rw [Shape.rowMajor_val_two, Shape.rowMajor_val_three]
  show r.val * 4096 + o.val = (b.val * 2048 + s.val) * 4096 + o.val
  omega

/-- A vector reshaped to a column, read at row o. -/
theorem reshape_col_apply (v : S4096.Idx → EReal) (o : Fin 4096) (z : Fin 1) :
    shapeCast S4096x1 v shapeCasts_S4096_S4096x1 (ix2 o z) = v (ix1 o) := by
  refine shapeCast_apply v _ (ix2 o z) (ix1 o) ?_
  rw [Shape.rowMajor_val_two, Shape.rowMajor_val_one]
  show o.val = o.val * 1 + z.val
  omega

/-- A column reshaped to a row, read at column o. -/
theorem reshape_row_apply (w : S4096x1.Idx → EReal) (o : Fin 4096) (z z' : Fin 1) :
    shapeCast S1x4096 w shapeCasts_S4096x1_S1x4096 (ix2 z o) = w (ix2 o z') := by
  refine shapeCast_apply w _ (ix2 z o) (ix2 o z') ?_
  rw [Shape.rowMajor_val_two, Shape.rowMajor_val_two]
  show o.val * 1 + z'.val = z.val * 4096 + o.val
  omega

/-! ## The result -/

/-- The last valuation's value at the result buffer is the fused arrangement of the five arguments. -/
theorem result_eq (c : Dev nD) :
    Gen.V4 m (outs m) c main_v6 = fun j : S2x2048x4096.Idx =>
      Cert.Spec.fused (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (j 0) (j 1) (j 2) := by
  refine (V4_v6 m c).trans ?_
  funext j
  obtain ⟨b, s, o, rfl⟩ : ∃ (b : Fin 2) (s : Fin 2048) (o : Fin 4096), j = ix3 b s o := ⟨j 0, j 1, j 2, eq_ix3 j⟩
  have hlt : 2048 * b.val + s.val < 4096 := by have := b.isLt; have := s.isLt; omega
  refine (reshape_back_apply _ b s ⟨2048 * b.val + s.val, hlt⟩ o rfl).trans ?_
  refine (congrFun (arr1_out (Ve1 m) c) (ix2 ⟨2048 * b.val + s.val, hlt⟩ o)).trans ?_
  show (∑ l : Fin 4096, Xarr (Ve1 m) c (ix2 ⟨2048 * b.val + s.val, hlt⟩ l) * Earr (Ve1 m) c (ix2 o l))
      * Sarr (Ve1 m) c (ix2 0 o)
    = Cert.Spec.fused (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) b s o
  unfold Cert.Spec.fused
  congr 1
  · refine Finset.sum_congr rfl fun l _ => ?_
    congr 1
    · exact (congrFun (Ve1_v4 m c) _).trans (reshape_rows_apply _ b s _ l rfl)
    · exact (congrFun (Ve1_v0_0 m c) _).trans (congrFun (arr0_eff (Ve0 m) c) (ix2 o l))
  · refine (congrFun (Ve1_v3 m c) _).trans ?_
    refine (reshape_row_apply _ o 0 0).trans ?_
    show Ideal.div _ _ = _
    congr 1
    · exact reshape_col_apply _ o 0
    · exact congrFun (arr0_nrm (Ve0 m) c) (ix2 o 0)

end Cert.KernelIdeal.Val

end
-- ==== Proof.lean ====
/-
  The claim, assembled. Both programs compute, for every (b, s, o),
      (Σ_i x[b,s,i]·eff[o,i]) · magnitude[o] / nrm[o],   eff = W + lora_B·lora_A,   nrm[o] = sqrt(Σ_i eff[o,i]²):
  the kernel as one product against eff, scaled by the quotient magnitude/nrm formed between its two
  regions; the reference as the base product plus the low-rank path, divided by nrm, times the magnitude.
  Under the precondition (finite inputs, every row norm positive) all quantities are real numbers and
  the two arrangements agree by distributivity and the commutativity of the three factors. Where a row
  norm is zero the reference's quotient is 0/0 and the two sides need not agree, which is why the
  precondition asks for positive norms.
  The frames of the two kernel programs come from one record per kernel region; the reference's frame
  is its run with the result dropped; the ideal pass rewrote nothing, so there is nothing to preserve.
-/
import proofs.«154487_j26989574488653_1_alg».proof.Defs
import proofs.«154487_j26989574488653_1_alg».proof.Proof.Gen.Kernel
import proofs.«154487_j26989574488653_1_alg».proof.Proof.Gen.Kernel.Skeleton
import proofs.«154487_j26989574488653_1_alg».proof.Proof.Gen.Kernel.Launch
import proofs.«154487_j26989574488653_1_alg».proof.Proof.Gen.Kernel.Regions
import proofs.«154487_j26989574488653_1_alg».proof.Proof.Gen.Kernel.Points
import proofs.«154487_j26989574488653_1_alg».proof.Proof.Gen.KernelIdeal
import proofs.«154487_j26989574488653_1_alg».proof.Proof.Gen.KernelIdeal.Skeleton
import proofs.«154487_j26989574488653_1_alg».proof.Proof.Gen.KernelIdeal.Launch
import proofs.«154487_j26989574488653_1_alg».proof.Proof.Gen.KernelIdeal.Regions
import proofs.«154487_j26989574488653_1_alg».proof.Proof.Gen.KernelIdeal.Points
import proofs.«154487_j26989574488653_1_alg».proof.Proof.Gen.ReferenceIdeal
import proofs.«154487_j26989574488653_1_alg».proof.Proof.Gen.ReferenceIdeal.Run
import proofs.«154487_j26989574488653_1_alg».proof.Proof.Gen.ReferenceIdeal.Read
import proofs.«154487_j26989574488653_1_alg».proof.Proof.Gen.Pre_finite_inputs
import proofs.«154487_j26989574488653_1_alg».proof.Proof.K.Segs
import proofs.«154487_j26989574488653_1_alg».proof.Proof.KI.Segs
import proofs.«154487_j26989574488653_1_alg».proof.Proof.Spec
import proofs.«154487_j26989574488653_1_alg».proof.Proof.PreFacts
import proofs.«154487_j26989574488653_1_alg».proof.Proof.RefVal
import proofs.«154487_j26989574488653_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both runs end with the fused arrangement of the arguments in the result buffer: the kernel's by its
    run and the bridge, the reference's because its split arrangement equals the fused one on real entries
    and positive norms. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V4 m (Cert.KernelIdeal.Hand.outs m) c Cert.KernelIdeal.main_v6,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v14_eq, Cert.ReferenceIdeal.RefVal.ref_eq]
  refine Eq.trans ?_ (Cert.KernelIdeal.Val.result_eq m c).symm
  obtain ⟨hx, hW, hA, hB, hm, hn⟩ := Cert.PreFacts.of_pre _ _ _ _ _ (hpre c)
  funext j
  exact (Cert.Spec.fused_eq_split _ _ _ _ _ hx hW hA hB hm hn (j 0) (j 1) (j 2)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
